-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x128 : Shape := ⟨2, ![512, 128]⟩
abbrev S256x128 : Shape := ⟨2, ![256, 128]⟩
abbrev S256x1 : Shape := ⟨2, ![256, 1]⟩
abbrev S262144x2 : Shape := ⟨2, ![262144, 2]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S262144x2 : S_.BroadcastsInDim S262144x2 (![] : Fin 0 → Fin S262144x2.rank)
  reducesTo_S262144x2_S_d0_1 : S262144x2.ReducesTo [0, 1] S_

variable [Facts]

def fn_part2 {F : FTy → Type} [FloatOps F] (main_arg6 : IVec S262144x2 32) (main_v31 : IVec S_ 1) (main_v32 : IVec S262144x2 32) : IVec S_ 1 :=
  let main_v33 : IVec S262144x2 1 := cmpi .sge main_arg6 main_v32
  let main_c_13 : IVec S_ 1 := constantI S_ 1 1#1
  let main_v34 : IVec S_ 1 := (fun x v => Host.reduce IntOp.andi x v reducesTo_S262144x2_S_d0_1 h_S_) main_v33 main_c_13
  let main_v35 : IVec S_ 1 := andi main_v31 main_v34
  let main_c_14 : IVec S_ 32 := constantI S_ 32 10000#32
  let main_v36 : IVec S262144x2 32 := broadcastInDim S262144x2 ![] bcast_S_S262144x2 main_c_14
  let main_v37 : IVec S262144x2 1 := cmpi .slt main_arg6 main_v36
  let main_c_15 : IVec S_ 1 := constantI S_ 1 1#1
  let main_v38 : IVec S_ 1 := (fun x v => Host.reduce IntOp.andi x v reducesTo_S262144x2_S_d0_1 h_S_) main_v37 main_c_15
  let main_v39 : IVec S_ 1 := andi main_v35 main_v38
  main_v39

def fn_part1 {F : FTy → Type} [FloatOps F] (main_arg4 : FVec F S256x1 .f32) (main_arg5 : IVec S262144x2 32) (main_arg6 : IVec S262144x2 32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_c_8 : IVec S_ 32 := constantI S_ 32 0#32
  let main_v24 : IVec S262144x2 32 := broadcastInDim S262144x2 ![] bcast_S_S262144x2 main_c_8
  let main_v25 : IVec S262144x2 1 := cmpi .sge main_arg5 main_v24
  let main_c_9 : IVec S_ 1 := constantI S_ 1 1#1
  let main_v26 : IVec S_ 1 := (fun x v => Host.reduce IntOp.andi x v reducesTo_S262144x2_S_d0_1 h_S_) main_v25 main_c_9
  let main_v27 : IVec S_ 1 := andi main_v23 main_v26
  let main_c_10 : IVec S_ 32 := constantI S_ 32 10000#32
  let main_v28 : IVec S262144x2 32 := broadcastInDim S262144x2 ![] bcast_S_S262144x2 main_c_10
  let main_v29 : IVec S262144x2 1 := cmpi .slt main_arg5 main_v28
  let main_c_11 : IVec S_ 1 := constantI S_ 1 1#1
  let main_v30 : IVec S_ 1 := (fun x v => Host.reduce IntOp.andi x v reducesTo_S262144x2_S_d0_1 h_S_) main_v29 main_c_11
  let main_v31 : IVec S_ 1 := andi main_v27 main_v30
  let main_c_12 : IVec S_ 32 := constantI S_ 32 0#32
  let main_v32 : IVec S262144x2 32 := broadcastInDim S262144x2 ![] bcast_S_S262144x2 main_c_12
  fn_part2 (F := F) main_arg6 main_v31 main_v32

def fn {F : FTy → Type} [FloatOps F] (main_arg0 : FVec F S10000x512 .f32) (main_arg1 : FVec F S10000x10000 .f32) (main_arg2 : FVec F S512x128 .f32) (main_arg3 : FVec F S256x128 .f32) (main_arg4 : FVec F S256x1 .f32) (main_arg5 : IVec S262144x2 32) (main_arg6 : IVec S262144x2 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S10000x512 : Shape := ⟨2, ![10000, 512]⟩
abbrev S10000x10000 : Shape := ⟨2, ![10000, 10000]⟩
abbrev S512x128 : Shape := ⟨2, ![512, 128]⟩
abbrev S256x128 : Shape := ⟨2, ![256, 128]⟩
abbrev S256x1 : Shape := ⟨2, ![256, 1]⟩
abbrev S262144x2 : Shape := ⟨2, ![262144, 2]⟩
abbrev S10000x128 : Shape := ⟨2, ![10000, 128]⟩
abbrev S1000x512 : Shape := ⟨2, ![1000, 512]⟩
abbrev S1000x128 : Shape := ⟨2, ![1000, 128]⟩
abbrev S200x10000 : Shape := ⟨2, ![200, 10000]⟩
abbrev S200x128 : Shape := ⟨2, ![200, 128]⟩
abbrev S524288x2 : Shape := ⟨2, ![524288, 2]⟩
abbrev S2x524288 : Shape := ⟨2, ![2, 524288]⟩
abbrev S128x128 : Shape := ⟨2, ![128, 128]⟩
abbrev S128x1 : Shape := ⟨2, ![128, 1]⟩
abbrev S524288x1 : Shape := ⟨2, ![524288, 1]⟩
abbrev S2x1024 : Shape := ⟨2, ![2, 1024]⟩
abbrev S1024x1 : Shape := ⟨2, ![1024, 1]⟩
abbrev S1x1024 : Shape := ⟨2, ![1, 1024]⟩
abbrev S1024 : Shape := ⟨1, ![1024]⟩
abbrev S1024x128 : Shape := ⟨2, ![1024, 128]⟩
abbrev S2000x128 : Shape := ⟨2, ![2000, 128]⟩
abbrev S1024x2000 : Shape := ⟨2, ![1024, 2000]⟩

abbrev nBuf : Space → Nat
  | .hbm => 18
  | .vmem => 19
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x128, .f32⟩
  | .hbm, ⟨3, _⟩ => ⟨S256x128, .f32⟩
  | .hbm, ⟨4, _⟩ => ⟨S256x1, .f32⟩
  | .hbm, ⟨5, _⟩ => ⟨S262144x2, .i32⟩
  | .hbm, ⟨6, _⟩ => ⟨S262144x2, .i32⟩
  | .hbm, ⟨7, _⟩ => ⟨S10000x128, .f32⟩
  | .hbm, ⟨8, _⟩ => ⟨S10000x128, .bf16⟩
  | .hbm, ⟨9, _⟩ => ⟨S10000x128, .f32⟩
  | .hbm, ⟨10, _⟩ => ⟨S10000x128, .bf16⟩
  | .hbm, ⟨11, _⟩ => ⟨S524288x2, .i32⟩
  | .hbm, ⟨12, _⟩ => ⟨S2x524288, .i32⟩
  | .hbm, ⟨13, _⟩ => ⟨S128x128, .f32⟩
  | .hbm, ⟨14, _⟩ => ⟨S128x128, .f32⟩
  | .hbm, ⟨15, _⟩ => ⟨S128x1, .f32⟩
  | .hbm, ⟨16, _⟩ => ⟨S128x1, .f32⟩
  | .hbm, ⟨17, _⟩ => ⟨S524288x1, .f32⟩
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S200x10000, .f32⟩
  | .local _ .vmem, ⟨6, _⟩ => ⟨S200x10000, .f32⟩
  | .local _ .vmem, ⟨7, _⟩ => ⟨S10000x128, .bf16⟩
  | .local _ .vmem, ⟨8, _⟩ => ⟨S200x128, .f32⟩
  | .local _ .vmem, ⟨9, _⟩ => ⟨S200x128, .f32⟩
  | .local _ .vmem, ⟨10, _⟩ => ⟨S2x1024, .i32⟩
  | .local _ .vmem, ⟨11, _⟩ => ⟨S2x1024, .i32⟩
  | .local _ .vmem, ⟨12, _⟩ => ⟨S10000x128, .bf16⟩
  | .local _ .vmem, ⟨13, _⟩ => ⟨S128x128, .f32⟩
  | .local _ .vmem, ⟨14, _⟩ => ⟨S128x128, .f32⟩
  | .local _ .vmem, ⟨15, _⟩ => ⟨S128x1, .f32⟩
  | .local _ .vmem, ⟨16, _⟩ => ⟨S128x1, .f32⟩
  | .local _ .vmem, ⟨17, _⟩ => ⟨S1024x1, .f32⟩
  | .local _ .vmem, ⟨18, _⟩ => ⟨S1024x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![512], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  concatenates_S262144x2_S262144x2_S524288x2_d0 : Shape.Concatenates [S262144x2, S262144x2] S524288x2 0
  transposes_S524288x2_S2x524288_1_0 : S524288x2.Transposes [1, 0] S2x524288
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  inb_S2x1024_S1x1024_1_0 : ∀ a, (![1, 0] : Fin 2 → Nat) a + S1x1024.size a ≤ S2x1024.size a
  inb_S10000x128_S2000x128_0_0 : ∀ a, (![0, 0] : Fin 2 → Nat) a + S2000x128.size a ≤ S10000x128.size a
  h_S2000x128 : 0 < S2000x128.numel
  shapeCasts_S2000x128_S2000x128 : S2000x128.ShapeCasts S2000x128
  iota_S1024x2000_d1_w32 : S1024x2000.Iotas .tc 32 [1]
  shapeCasts_S1024_S1024x1 : S1024.ShapeCasts S1024x1
  broadcasts_S1024x1_S1024x2000 : S1024x1.Broadcasts S1024x2000
  natLt_1_32 : 1 < 32
  inb_S10000x128_S2000x128_2000_0 : ∀ a, (![2000, 0] : Fin 2 → Nat) a + S2000x128.size a ≤ S10000x128.size a
  inb_S10000x128_S2000x128_4000_0 : ∀ a, (![4000, 0] : Fin 2 → Nat) a + S2000x128.size a ≤ S10000x128.size a
  inb_S10000x128_S2000x128_6000_0 : ∀ a, (![6000, 0] : Fin 2 → Nat) a + S2000x128.size a ≤ S10000x128.size a
  inb_S10000x128_S2000x128_8000_0 : ∀ a, (![8000, 0] : Fin 2 → Nat) a + S2000x128.size a ≤ S10000x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1024x1_S1024x1_0_0 : ∀ a, (![0, 0] : Fin 2 → Nat) a + S1024x1.size a ≤ S1024x1.size a
  h_S1024x1 : 0 < S1024x1.numel
  dot_S1000x512_S512x128_S1000x128_1_0_0_1_n_n_wf : DotDims.WF S1000x512 S512x128 S1000x128 [1] [0] [0] [1] [] []
  dot_S200x10000_S10000x128_S200x128_1_0_0_1_n_n_wf : DotDims.WF S200x10000 S10000x128 S200x128 [1] [0] [0] [1] [] []
  dot_S1024x2000_S2000x128_S1024x128_1_0_0_1_n_n_wf : DotDims.WF S1024x2000 S2000x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S10000x128.size a
  hwx1_2 : ∀ i : grid1.Coords, EltTy.bits .f32 = 32 ∨ (Rect.block (s := S10000x128) S200x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x1024.size a ≤ S2x524288.size a
  hwx2_0 : ∀ i : grid2.Coords, EltTy.bits .i32 = 32 ∨ (Rect.block (s := S2x524288) S2x1024.size (cc2_transform_0 i) (hinb2_0 i)).WholeWords (EltTy.packing .i32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1.size a ≤ S524288x1.size a
  hwx2_6 : ∀ i : grid2.Coords, EltTy.bits .f32 = 32 ∨ (Rect.block (s := S524288x1) S1024x1.size (cc2_transform_6 i) (hinb2_6 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S1024x2000_S2000x128_S1024x128_1_0_0_1_n_n : DotDims S1024x2000 S2000x128 S1024x128 where
  lhsContracting := [1]
  rhsContracting := [0]
  lhsNonContracting := [0]
  rhsNonContracting := [1]
  lhsBatch := []
  rhsBatch := []
  wf := dot_S1024x2000_S2000x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S2x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1024x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x128 : Shape := ⟨2, ![512, 128]⟩
abbrev S256x128 : Shape := ⟨2, ![256, 128]⟩
abbrev S256x1 : Shape := ⟨2, ![256, 1]⟩
abbrev S262144x2 : Shape := ⟨2, ![262144, 2]⟩
abbrev S10000x128 : Shape := ⟨2, ![10000, 128]⟩
abbrev S524288x2 : Shape := ⟨2, ![524288, 2]⟩
abbrev S524288x1 : Shape := ⟨2, ![524288, 1]⟩
abbrev S524288 : Shape := ⟨1, ![524288]⟩
abbrev S_ : Shape := ⟨0, ![]⟩
abbrev S524288x128 : Shape := ⟨2, ![524288, 128]⟩
abbrev S524288x256 : Shape := ⟨2, ![524288, 256]⟩

abbrev nBuf : Space → Nat
  | .hbm => 48
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x128, .f32⟩
  | .hbm, ⟨3, _⟩ => ⟨S256x128, .f32⟩
  | .hbm, ⟨4, _⟩ => ⟨S256x1, .f32⟩
  | .hbm, ⟨5, _⟩ => ⟨S262144x2, .i32⟩
  | .hbm, ⟨6, _⟩ => ⟨S262144x2, .i32⟩
  | .hbm, ⟨7, _⟩ => ⟨S10000x128, .f32⟩
  | .hbm, ⟨8, _⟩ => ⟨S10000x128, .f32⟩
  | .hbm, ⟨9, _⟩ => ⟨S524288x2, .i32⟩
  | .hbm, ⟨10, _⟩ => ⟨S524288x1, .i32⟩
  | .hbm, ⟨11, _⟩ => ⟨S524288, .i32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S524288x1, .i32⟩
  | .hbm, ⟨20, _⟩ => ⟨S524288x128, .f32⟩
  | .hbm, ⟨21, _⟩ => ⟨S524288x1, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288x128, .f32⟩
  | .hbm, ⟨32, _⟩ => ⟨S524288x256, .f32⟩
  | .hbm, ⟨33, _⟩ => ⟨S524288x128, .f32⟩
  | .hbm, ⟨34, _⟩ => ⟨S_, .f32⟩
  | .hbm, ⟨35, _⟩ => ⟨S524288x256, .f32⟩
  | .hbm, ⟨36, _⟩ => ⟨S524288x256, .f32⟩
  | .hbm, ⟨37, _⟩ => ⟨S524288x128, .f32⟩
  | .hbm, ⟨38, _⟩ => ⟨S524288x256, .f32⟩
  | .hbm, ⟨39, _⟩ => ⟨S524288x1, .f32⟩
  | .hbm, ⟨40, _⟩ => ⟨S524288x1, .f32⟩
  | .hbm, ⟨41, _⟩ => ⟨S524288x1, .f32⟩
  | .hbm, ⟨42, _⟩ => ⟨S_, .f32⟩
  | .hbm, ⟨43, _⟩ => ⟨S524288x1, .f32⟩
  | .hbm, ⟨44, _⟩ => ⟨S524288x1, .f32⟩
  | .hbm, ⟨45, _⟩ => ⟨S_, .f32⟩
  | .hbm, ⟨46, _⟩ => ⟨S524288x1, .f32⟩
  | .hbm, ⟨47, _⟩ => ⟨S524288x1, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  concatenates_S262144x2_S262144x2_S524288x2_d0 : Shape.Concatenates [S262144x2, S262144x2] S524288x2 0
  slices_S524288x2_S524288x1_0_0 : S524288x2.Slices ![0, 0] S524288x1
  shapeCasts_S524288x1_S524288 : S524288x1.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_1 : S524288x2.Slices ![0, 1] S524288x1
  concatenates_S524288x128_S524288x128_S524288x256_d1 : Shape.Concatenates [S524288x128, S524288x128] S524288x256 1
  bcast_S_S524288x256 : S_.BroadcastsInDim S524288x256 (![] : Fin 0 → Fin S524288x256.rank)
  bcast_S_S524288x1 : S_.BroadcastsInDim S524288x1 (![] : Fin 0 → Fin S524288x1.rank)
  dot_S10000x512_S512x128_S10000x128_1_0_0_1_n_n_wf : DotDims.WF S10000x512 S512x128 S10000x128 [1] [0] [0] [1] [] []
  dot_S10000x10000_S10000x128_S10000x128_1_0_0_1_n_n_wf : DotDims.WF S10000x10000 S10000x128 S10000x128 [1] [0] [0] [1] [] []
  gather_S10000x128_S524288x1_S524288x128_1_0_n_n_0_1_1128_wf : GatherDims.WF S10000x128 S524288x1 S524288x128 [1] [0] [] [0] [] 1 ![1, 128]
  dot_S524288x256_S256x128_S524288x128_1_0_0_1_n_n_wf : DotDims.WF S524288x256 S256x128 S524288x128 [1] [0] [0] [1] [] []
  dot_S524288x256_S256x1_S524288x1_1_0_0_1_n_n_wf : DotDims.WF S524288x256 S256x1 S524288x1 [1] [0] [0] [1] [] []

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def gather_S10000x128_S524288x1_S524288x128_1_0_n_n_0_1_1128 : GatherDims S10000x128 S524288x1 S524288x128 where
  offsetDims := [1]
  collapsedSliceDims := [0]
  operandBatchingDims := []
  startIndicesBatchingDims := []
  startIndexMap := [0]
  indexVectorDim := 1
  sliceSizes := ![1, 128]
  wf := gather_S10000x128_S524288x1_S524288x128_1_0_n_n_0_1_1128_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.Spec.lean ====
/-
  The mathematics both programs compute, over the extended reals.

  Node embeddings: Z = adj · (x · w), a 10000 × 128 array. For edge e of the concatenated edge list (the first 262144
  edges from the first list, the rest from the second) with endpoints (i, j), the decoder reads rows Z[i] and Z[j],
  forms the hidden vector  h = relu(Z[i]) · W2[0:128] + relu(Z[j]) · W2[128:256]  and the logit
  h · W3[0:128] + (Z[i] ∘ Z[j]) · W3[128:256], and returns its logistic.  A row read at a position that is not below
  10000 is the zero row (that is what a sum of one-hot products gives; positions in range never meet this case).
-/
import Idealize.ShloMosaic.Lib.ValueIdx
import Idealize.ShloMosaic.PureOps.Ideal.Laws

noncomputable section

namespace Cert.Hand.Spec

open Idealize.ShloMosaic Idealize.ShloMosaic.ValueIdx

/-- An M × N array of extended reals. -/
abbrev A (M N : Nat) : Type := (⟨2, ![M, N]⟩ : Shape).Idx → EReal
/-- An M × N array of 32-bit words. -/
abbrev W (M N : Nat) : Type := (⟨2, ![M, N]⟩ : Shape).Idx → BitVec 32

/-- The matrix product, entry (r, c): the sum over k of a (r, k) · b (k, c). -/
def mm {M K N : Nat} (a : A M K) (b : A K N) : A M N := fun i => ∑ k : Fin K, a (ix2 (i 0) k) * b (ix2 k (i 1))

theorem mm_apply {M K N : Nat} (a : A M K) (b : A K N) (r : Fin M) (c : Fin N) :
    mm a b (ix2 r c) = ∑ k : Fin K, a (ix2 r k) * b (ix2 k c) := rfl

/-- Row n of a 10000 × 128 array, the zero row when n is not below 10000. -/
def row (Z : A 10000 128) (n : Nat) (d : Fin 128) : EReal := if h : n < 10000 then Z (ix2 ⟨n, h⟩ d) else 0

/-- Endpoint a of edge e of the two edge lists laid one after the other. -/
def edge (e5 e6 : W 262144 2) (e : Fin 524288) (a : Fin 2) : BitVec 32 :=
  if h : e.val < 262144 then e5 (ix2 ⟨e.val, h⟩ a) else e6 (ix2 ⟨e.val - 262144, by omega⟩ a)

/-- The hidden vector: relu of each gathered row against its half of W2. -/
def hid (zi zj : Fin 128 → EReal) (w2 : A 256 128) (d : Fin 128) : EReal :=
  (∑ j : Fin 128, max (zi j) 0 * w2 (ix2 (⟨j.val, by omega⟩ : Fin 256) d))
    + ∑ j : Fin 128, max (zj j) 0 * w2 (ix2 (⟨128 + j.val, by omega⟩ : Fin 256) d)

/-- The logit: the hidden vector against the first half of W3, the product of the rows against the second. -/
def logit (zi zj : Fin 128 → EReal) (w2 : A 256 128) (w3 : A 256 1) : EReal :=
  (∑ k : Fin 128, hid zi zj w2 k * w3 (ix2 (⟨k.val, by omega⟩ : Fin 256) (0 : Fin 1)))
    + ∑ k : Fin 128, (zi k * zj k) * w3 (ix2 (⟨128 + k.val, by omega⟩ : Fin 256) (0 : Fin 1))

/-- The decoder's output for one pair of rows. -/
def dec (zi zj : Fin 128 → EReal) (w2 : A 256 128) (w3 : A 256 1) : EReal := Ideal.logistic (logit zi zj w2 w3)

/-- The result at edge e. -/
def out (x : A 10000 512) (adj : A 10000 10000) (w : A 512 128) (w2 : A 256 128) (w3 : A 256 1) (e5 e6 : W 262144 2)
    (e : Fin 524288) : EReal :=
  dec (row (mm adj (mm x w)) (edge e5 e6 e 0).toNat) (row (mm adj (mm x w)) (edge e5 e6 e 1).toNat) w2 w3

end Cert.Hand.Spec

end
-- ==== Proof.PreRange.lean ====
/-
  The index ranges, read out of the printed precondition.

  The precondition is a conjunction (an `and` of one-bit scalars) of nine tests, each a `jnp.all`: five say that every
  entry of a float argument has |x| < ∞, four say of the two integer edge tables that every word w has 0 ≤ w and
  w < 10000, read signed. When the conjunction is 1, each conjunct is 1; a reduction by `and` over all axes that is 1
  met only 1s; a comparison word that is 1 says its order relation of the two words read signed; and a 32-bit word that
  is nonnegative and below 10000 read signed has the same value read unsigned. So every word of both edge tables is
  below 10000 as a natural number.
-/
import proofs.«405411_j24885040513647_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Hand.PreRange

open Idealize.ShloMosaic

/-- A 32-bit word w with 0 ≤ w and w < 10000, both read signed, is below 10000 read unsigned: the signed reading of a
    word is its unsigned value when that is below 2³¹ and the value minus 2³² otherwise, and the second case is negative. -/
theorem toNat_lt_of_cmpi (w : BitVec 32) (h0 : IntOp.cmpi .sge w (0#32) = 1#1)
    (h1 : IntOp.cmpi .slt w (10000#32) = 1#1) : w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have h32 := w.isLt
  unfold BitVec.toInt at h0 h1
  split at h1 <;> omega

/-- If the precondition holds (its one-bit result is 1), every word of both edge tables is below 10000.
    The nine conjuncts nest to the left, ((((((((f0 ∧ f1) ∧ f2) ∧ f3) ∧ f4) ∧ a5≥0) ∧ a5<10000) ∧ a6≥0) ∧ a6<10000,
    so the four integer tests are the last four peeled off; each is a reduction by `and` over both axes into the
    one-index scalar shape, hence says its comparison is 1 at every index; the comparison at an index is the word
    comparison of the table's word with the broadcast constant, which is the constant itself. -/
theorem range_of_pre {F : FTy → Type} [FloatOps F] [Cert.Pre_finite_inputs.Facts]
    (x0 : FVec F Cert.Pre_finite_inputs.S10000x512 .f32) (x1 : FVec F Cert.Pre_finite_inputs.S10000x10000 .f32)
    (x2 : FVec F Cert.Pre_finite_inputs.S512x128 .f32) (x3 : FVec F Cert.Pre_finite_inputs.S256x128 .f32)
    (x4 : FVec F Cert.Pre_finite_inputs.S256x1 .f32) (x5 x6 : IVec Cert.Pre_finite_inputs.S262144x2 32)
    (h : Cert.Pre_finite_inputs.fn (F := F) x0 x1 x2 x3 x4 x5 x6 = fun _ => 1#1) :
    (∀ i, (x5 i).toNat < 10000) ∧ ∀ i, (x6 i).toNat < 10000 := by
  -- the rank-0 shape has exactly one index
  haveI : Subsingleton Cert.Pre_finite_inputs.S_.Idx := ⟨fun a b => funext fun d => d.elim0⟩
  have e := congrFun h ValueIdx.ix0
  unfold Cert.Pre_finite_inputs.fn at e
  dsimp only at e
  unfold Cert.Pre_finite_inputs.fn_part1 at e
  dsimp only at e
  unfold Cert.Pre_finite_inputs.fn_part2 at e
  dsimp only at e
  -- peel the last four conjuncts; the remaining five (the float tests) are not needed
  obtain ⟨e, h6lt⟩ := IntOp.andi_eq_one.1 e
  obtain ⟨e, h6ge⟩ := IntOp.andi_eq_one.1 e
  obtain ⟨e, h5lt⟩ := IntOp.andi_eq_one.1 e
  obtain ⟨e, h5ge⟩ := IntOp.andi_eq_one.1 e
  clear e
  -- each `all` that is 1 had a 1 at every index
  have a5ge := Host.reduce_andi_all _ _ _ _ _ h5ge
  have a5lt := Host.reduce_andi_all _ _ _ _ _ h5lt
  have a6ge := Host.reduce_andi_all _ _ _ _ _ h6ge
  have a6lt := Host.reduce_andi_all _ _ _ _ _ h6lt
  exact ⟨fun i => toNat_lt_of_cmpi (x5 i) (a5ge i) (a5lt i), fun i => toNat_lt_of_cmpi (x6 i) (a6ge i) (a6lt i)⟩

end Cert.Hand.PreRange

end
-- ==== Proof.HostGlue.lean ====
/-
  What the host operations between the three kernel regions leave for the next region, read at an index.

  Between region 0 and region 1 the product x · w is converted to the narrower float format: on extended reals the
  identity. Between region 1 and region 2 the embeddings are converted likewise; the two edge lists are laid one
  after the other and transposed, so that entry (a, e) of the result is endpoint a of edge e; the two weight
  matrices of the decoder are cut into their upper and lower halves (rows 0 … 127 and rows 128 … 255). No host
  operation and no region writes an argument array, so each is read back as launched.
-/
import proofs.«405411_j24885040513647_3_alg».proof.Proof.Gen.KernelIdeal.Frame
import proofs.«405411_j24885040513647_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.Hand.HostGlue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## Region 1's operands -/

/-- Region 1 finds, as its right operand, what region 0 left in its output array. -/
theorem V2_v1 (c : Dev nD) : V2 m ρ c main_v1 = (dat0 (V0 m ρ) c).arrAt 2 cfg0.N := by
  show StableHlo.after hostOps1 (W1 m ρ c) (Proc.devRef .tc main_v1) = _
  after_results
  exact W1_arr m ρ c 2

/-- Region 1 finds the adjacency matrix as launched. -/
theorem V2_arg1 (c : Dev nD) : V2 m ρ c main_arg1 = m ((c : Thread nD τ).loc main_arg1) := by
  show StableHlo.after hostOps1 (W1 m ρ c) (Proc.devRef .tc main_arg1) = _
  after_results
  exact W1_of_ne m ρ c main_arg1 (by decide)

/-! ## Region 2's operands -/

/-- Region 2 finds, as its node table, what region 1 left in its output array. -/
theorem V4_v3 (c : Dev nD) : V4 m ρ c main_v3 = (dat1 (V2 m ρ) c).arrAt 2 cfg1.N := by
  show StableHlo.after hostOps2 (W3 m ρ c) (Proc.devRef .tc main_v3) = _
  after_results
  exact W3_arr m ρ c 2

/-- An argument array no host operation between the regions writes is, before region 2, what it is after it. -/
theorem W3_arg3 (c : Dev nD) : W3 m ρ c (Proc.devRef .tc main_arg3) = m ((c : Thread nD τ).loc main_arg3) := by
  have h4 : W4 m ρ c (Proc.devRef .tc main_arg3) = W3 m ρ c (Proc.devRef .tc main_arg3) := by
    show StableHlo.after hostOps2 (W3 m ρ c) (Proc.devRef .tc main_arg3) = _
    after_results
  exact h4.symm.trans ((W5_of_ne m ρ c main_arg3 (by decide)).symm.trans (W5_main_arg3 m ρ c))
theorem W3_arg4 (c : Dev nD) : W3 m ρ c (Proc.devRef .tc main_arg4) = m ((c : Thread nD τ).loc main_arg4) := by
  have h4 : W4 m ρ c (Proc.devRef .tc main_arg4) = W3 m ρ c (Proc.devRef .tc main_arg4) := by
    show StableHlo.after hostOps2 (W3 m ρ c) (Proc.devRef .tc main_arg4) = _
    after_results
  exact h4.symm.trans ((W5_of_ne m ρ c main_arg4 (by decide)).symm.trans (W5_main_arg4 m ρ c))
theorem W3_arg5 (c : Dev nD) : W3 m ρ c (Proc.devRef .tc main_arg5) = m ((c : Thread nD τ).loc main_arg5) := by
  have h4 : W4 m ρ c (Proc.devRef .tc main_arg5) = W3 m ρ c (Proc.devRef .tc main_arg5) := by
    show StableHlo.after hostOps2 (W3 m ρ c) (Proc.devRef .tc main_arg5) = _
    after_results
  exact h4.symm.trans ((W5_of_ne m ρ c main_arg5 (by decide)).symm.trans (W5_main_arg5 m ρ c))
theorem W3_arg6 (c : Dev nD) : W3 m ρ c (Proc.devRef .tc main_arg6) = m ((c : Thread nD τ).loc main_arg6) := by
  have h4 : W4 m ρ c (Proc.devRef .tc main_arg6) = W3 m ρ c (Proc.devRef .tc main_arg6) := by
    show StableHlo.after hostOps2 (W3 m ρ c) (Proc.devRef .tc main_arg6) = _
    after_results
  exact h4.symm.trans ((W5_of_ne m ρ c main_arg6 (by decide)).symm.trans (W5_main_arg6 m ρ c))

/-- The two edge lists laid one after the other, read at (e, a): endpoint a of edge e. -/
theorem edges_apply (x5 x6 : IVec S262144x2 32) (e : Fin 524288) (a : Fin 2) :
    concatenate S524288x2 0 [⟨S262144x2, x5⟩, ⟨S262144x2, x6⟩] concatenates_S262144x2_S262144x2_S524288x2_d0 (ix2 e a)
      = Spec.edge x5 x6 e a := by
  unfold Spec.edge
  by_cases h : e.val < 262144
  · rw [dif_pos h]
    exact concatenate_pair_apply_left (0 : Fin S524288x2.rank) x5 x6 concatenates_S262144x2_S262144x2_S524288x2_d0 (ix2 e a) rfl
      (ix2 ⟨e.val, h⟩ a) (fun b => match b with | ⟨0, _⟩ => rfl | ⟨1, _⟩ => rfl)
  · rw [dif_neg h]
    refine concatenate_pair_apply_right (0 : Fin S524288x2.rank) x5 x6 concatenates_S262144x2_S262144x2_S524288x2_d0 (ix2 e a) rfl rfl
      (ix2 ⟨e.val - 262144, by have := e.isLt; omega⟩ a) (fun b hb => match b, hb with | ⟨0, _⟩, hb => absurd rfl hb | ⟨1, _⟩, _ => rfl) ?_
    show e.val - 262144 + 262144 = e.val
    omega

/-- Region 2 finds, at (a, e) of its edge operand, endpoint a of edge e of the two lists laid one after the other. -/
theorem V4_v5_apply (c : Dev nD) (a : Fin 2) (e : Fin 524288) :
    V4 m ρ c main_v5 (ix2 a e) = Spec.edge (m ((c : Thread nD τ).loc main_arg5)) (m ((c : Thread nD τ).loc main_arg6)) e a := by
  have h : V4 m ρ c main_v5 = transpose S2x524288 [1, 0] (concatenate S524288x2 0 [⟨S262144x2, W3 m ρ c (Proc.devRef .tc main_arg5)⟩, ⟨S262144x2, W3 m ρ c (Proc.devRef .tc main_arg6)⟩] concatenates_S262144x2_S262144x2_S524288x2_d0) transposes_S524288x2_S2x524288_1_0 := by
    show StableHlo.after hostOps2 (W3 m ρ c) (Proc.devRef .tc main_v5) = _
    after_results
  rw [h, W3_arg5, W3_arg6]
  exact (transpose_ix2_apply _ transposes_S524288x2_S2x524288_1_0 a e).trans (edges_apply _ _ e a)

/-- The upper half of the first decoder matrix. -/
theorem V4_v6_apply (c : Dev nD) (j k : Fin 128) :
    V4 m ρ c main_v6 (ix2 j k) = m ((c : Thread nD τ).loc main_arg3) (ix2 (⟨j.val, by omega⟩ : Fin 256) k) := by
  have h : V4 m ρ c main_v6 = extractStridedSlice S128x128 ![0, 0] (W3 m ρ c (Proc.devRef .tc main_arg3)) slices_S256x128_S128x128_0_0 := by
    show StableHlo.after hostOps2 (W3 m ρ c) (Proc.devRef .tc main_v6) = _
    after_results
  rw [h, W3_arg3]
  exact extractStridedSlice_apply _ _ _ _ _ (fun b => match b with
    | ⟨0, _⟩ => by show j.val = 0 + j.val; omega
    | ⟨1, _⟩ => by show k.val = 0 + k.val; omega)

/-- The lower half of the first decoder matrix. -/
theorem V4_v7_apply (c : Dev nD) (j k : Fin 128) :
    V4 m ρ c main_v7 (ix2 j k) = m ((c : Thread nD τ).loc main_arg3) (ix2 (⟨128 + j.val, by omega⟩ : Fin 256) k) := by
  have h : V4 m ρ c main_v7 = extractStridedSlice S128x128 ![128, 0] (W3 m ρ c (Proc.devRef .tc main_arg3)) slices_S256x128_S128x128_128_0 := by
    show StableHlo.after hostOps2 (W3 m ρ c) (Proc.devRef .tc main_v7) = _
    after_results
  rw [h, W3_arg3]
  exact extractStridedSlice_apply _ _ _ _ _ (fun b => match b with
    | ⟨0, _⟩ => rfl
    | ⟨1, _⟩ => by show k.val = 0 + k.val; omega)

/-- The upper half of the second decoder matrix. -/
theorem V4_v8_apply (c : Dev nD) (k : Fin 128) :
    V4 m ρ c main_v8 (ix2 k (0 : Fin 1)) = m ((c : Thread nD τ).loc main_arg4) (ix2 (⟨k.val, by omega⟩ : Fin 256) (0 : Fin 1)) := by
  have h : V4 m ρ c main_v8 = extractStridedSlice S128x1 ![0, 0] (W3 m ρ c (Proc.devRef .tc main_arg4)) slices_S256x1_S128x1_0_0 := by
    show StableHlo.after hostOps2 (W3 m ρ c) (Proc.devRef .tc main_v8) = _
    after_results
  rw [h, W3_arg4]
  exact extractStridedSlice_apply _ _ _ _ _ (fun b => match b with
    | ⟨0, _⟩ => by show k.val = 0 + k.val; omega
    | ⟨1, _⟩ => rfl)

/-- The lower half of the second decoder matrix. -/
theorem V4_v9_apply (c : Dev nD) (k : Fin 128) :
    V4 m ρ c main_v9 (ix2 k (0 : Fin 1)) = m ((c : Thread nD τ).loc main_arg4) (ix2 (⟨128 + k.val, by omega⟩ : Fin 256) (0 : Fin 1)) := by
  have h : V4 m ρ c main_v9 = extractStridedSlice S128x1 ![128, 0] (W3 m ρ c (Proc.devRef .tc main_arg4)) slices_S256x1_S128x1_128_0 := by
    show StableHlo.after hostOps2 (W3 m ρ c) (Proc.devRef .tc main_v9) = _
    after_results
  rw [h, W3_arg4]
  exact extractStridedSlice_apply _ _ _ _ _ (fun b => match b with
    | ⟨0, _⟩ => rfl
    | ⟨1, _⟩ => rfl)

end Cert.Hand.HostGlue

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.XwValue.lean ====
/-
  The first region's result array: the matrix product x · w.

  The region walks ten grid points. At point t it reads the block of rows 1000 t … 1000 t + 999 of the 10000 × 512 left
  array and the whole 512 × 128 right array, multiplies them, and writes the 1000 × 128 product back as rows
  1000 t … 1000 t + 999 of the 10000 × 128 result array. Over the extended reals rounding to a narrower format is the
  identity and a product accumulated into the zero array is the plain finite sum, so entry (p, q) of the block written
  at point t is  ∑ k < 512, x (1000 t + p, k) · w (k, q),  which is entry (1000 t + p, q) of the product of the two whole
  arrays. The ten row blocks tile the 10000 rows (row r lies in the block of point r / 1000), so after the region the
  result array IS the product — for any contents the region finds in its arrays.
-/
import proofs.«405411_j24885040513647_3_alg».proof.Proof.Gen.KernelIdeal.Frame
import proofs.«405411_j24885040513647_3_alg».proof.Proof.Spec
import proofs.«405411_j24885040513647_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.Hand.Xw

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are the plain ones: columns against rows, nothing batched. -/
theorem plain : PlainDot.IsPlain dot_S1000x512_S512x128_S1000x128_1_0_0_1_n_n := ⟨rfl, rfl, rfl, rfl, rfl, rfl⟩

/-- The block product at entry (p, q): rounding to the narrower format is the identity over the extended reals, and the
    product into the zero array is the plain sum over the 512 contracted positions. -/
theorem pay_apply (x0 : Vec Ideal S1000x512 .f32) (x1 : Vec Ideal S512x128 .f32) (p : Fin 1000) (q : Fin 128) :
    k0_pay1 x0 x1 (ix2 p q) = ∑ k : Fin 512, x0 (ix2 p k) * x1 (ix2 k q) := by
  unfold k0_pay1
  exact plain.matmul_zero_apply none _ _ p q

/-- The block index maps, decided once over the ten grid points: the left operand and the result move down their rows
    with the point, a block of 1000 rows each; the right operand is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of point t is row 1000 t + p of a 10000-row array. -/
theorem row_lt (t : Fin cfg0.N) (p : Fin 1000) : t.val * 1000 + p.val < 10000 := by
  have ht : t.val < 10 := lt_of_lt_of_eq t.isLt N_0
  have hp := p.isLt
  omega

/-- The left operand's block at point t is rows 1000 t … 1000 t + 999 of the left array. -/
theorem lhs_blk_apply (c : Dev nD) (t : Fin cfg0.N) (p : Fin 1000) (k : Fin 512) :
    (iblk0 V c 0 t : Vec Ideal S1000x512 .f32) (ix2 p k)
      = (V c main_arg0 : S10000x512.Idx → EReal) (ix2 ⟨t.val * 1000 + p.val, row_lt t p⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 512 + 1 * k.val = k.val; rw [e1]; omega

/-- The right operand's block at every point is the whole right array. -/
theorem rhs_blk_apply (c : Dev nD) (t : Fin cfg0.N) (k : Fin 512) (q : Fin 128) :
    (iblk0 V c 1 t : Vec Ideal S512x128 .f32) (ix2 k q) = (V c main_arg2 : S512x128.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- Entry (p, q) of the result's block at point t sits at entry (1000 t + p, q) of the result array. -/
theorem out_emb (t : Fin cfg0.N) (p : Fin 1000) (q : Fin 128) :
    ((cfg0.win 2).blk t).view.emb (ix2 p q) = (ix2 ⟨t.val * 1000 + p.val, row_lt t p⟩ q : S10000x128.Idx) := by
  obtain ⟨-, -, -, -, e4, e5⟩ := idx_facts t
  funext a
  apply Fin.ext
  match a with
  | ⟨0, _⟩ => show win0_2.index t (0 : Fin 2) * 1000 + 1 * p.val = t.val * 1000 + p.val; rw [e4]; omega
  | ⟨1, _⟩ => show win0_2.index t (1 : Fin 2) * 128 + 1 * q.val = q.val; rw [e5]; omega

/-- What point t writes back is block t of the product of the two arrays as the region finds them. -/
theorem flushed_eq (c : Dev nD) (t : Fin cfg0.N) :
    (dat0 V c).flushed 2 t
      = ((cfg0.win 2).blk t).view.read (Elt Ideal) (Cert.Hand.Spec.mm (V c main_arg0) (V c main_arg2)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x128) hz]
  funext j
  obtain ⟨p, q, rfl⟩ : ∃ (p : Fin 1000) (q : Fin 128), j = ix2 p q := ⟨j 0, j 1, eq_ix2 j⟩
  rw [View.read_apply, out_emb t p q, Cert.Hand.Spec.mm_apply]
  refine (pay_apply _ _ p q).trans ?_
  refine Finset.sum_congr rfl fun k _ => ?_
  rw [lhs_blk_apply V c t p k, rhs_blk_apply V c t k q]

/-- An index of the result array is in point t's block iff each coordinate is in the block's range on its axis. -/
theorem mem_blk (t : Fin cfg0.N) (i : S10000x128.Idx) :
    i ∈ ((cfg0.win 2).blk t).view.set
      ↔ ∀ a : Fin 2, win0_2.index t a * S1000x128.size a ≤ (i a).val
          ∧ (i a).val < win0_2.index t a * S1000x128.size a + S1000x128.size a := by
  show i ∈ ((View.whole main_v0).slice (win0_2.rect t)).set ↔ _
  rw [View.set_slice_whole, Rect.mem_set_unit]
  exact Iff.rfl

/-- The blocks tile the rows: row r of the result array lies in the block of point r / 1000. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 10 := N_0
  let t : Fin cfg0.N := ⟨(i 0).val / 1000, by rw [hN]; omega⟩
  obtain ⟨-, -, -, -, e4, e5⟩ := idx_facts t
  have ht : t.val = (i 0).val / 1000 := rfl
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    rw [e4, ht]; omega
  | ⟨1, _⟩ =>
    show win0_2.index t (1 : Fin 2) * 128 ≤ (i 1).val ∧ (i 1).val < win0_2.index t (1 : Fin 2) * 128 + 128
    rw [e5]; omega

/-- After the region the result array holds the product x · w of the two arrays as the region found them. -/
theorem arr_eq (c : Dev nD) :
    (dat0 V c).arrAt 2 cfg0.N = Cert.Hand.Spec.mm (V c main_arg0) (V c main_arg2) :=
  (dat0 V c).arrAt_eq_of_cover 2 (Cert.Hand.Spec.mm (V c main_arg0) (V c main_arg2))
    (fun t _ => flushed_eq V c t) cover

end Cert.Hand.Xw

end
-- ==== Proof.ZValue.lean ====
/-
  The second region's result array: the matrix product adj · xw.

  The region walks fifty grid points. At point t it reads the block of rows 200 t … 200 t + 199 of the 10000 × 10000
  left array and the whole 10000 × 128 right array (held in the narrower format, and reshaped to its own shape, which
  changes nothing), multiplies them, and writes the 200 × 128 product back as rows 200 t … 200 t + 199 of the
  10000 × 128 result array. Over the extended reals rounding to a narrower format is the identity and a product
  accumulated into the zero array is the plain finite sum, so entry (p, q) of the block written at point t is
  ∑ k < 10000, adj (200 t + p, k) · xw (k, q),  which is entry (200 t + p, q) of the product of the two whole arrays.
  The fifty row blocks tile the 10000 rows (row r lies in the block of point r / 200), so after the region the result
  array IS the product — for any contents the region finds in its arrays.
-/
import proofs.«405411_j24885040513647_3_alg».proof.Proof.Gen.KernelIdeal.Frame
import proofs.«405411_j24885040513647_3_alg».proof.Proof.Spec
import proofs.«405411_j24885040513647_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.Hand.Zv

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are the plain ones: columns against rows, nothing batched. -/
theorem plain : PlainDot.IsPlain dot_S200x10000_S10000x128_S200x128_1_0_0_1_n_n := ⟨rfl, rfl, rfl, rfl, rfl, rfl⟩

/-- The block product at entry (p, q): rounding to the narrower format is the identity over the extended reals, a
    reshape to the same shape is the identity, and the product into the zero array is the plain sum over the 10000
    contracted positions. -/
theorem pay_apply (x0 : Vec Ideal S200x10000 .f32) (x1 : Vec Ideal S10000x128 .bf16) (p : Fin 200) (q : Fin 128) :
    k1_pay1 x0 x1 (ix2 p q) = ∑ k : Fin 10000, x0 (ix2 p k) * x1 (ix2 k q) := by
  unfold k1_pay1
  refine (plain.matmul_zero_apply none _ _ p q).trans ?_
  simp only [shapeCast_self]
  rfl

/-- The block index maps, decided once over the fifty grid points: the left operand and the result move down their
    rows with the point, a block of 200 rows each; the right operand is the whole array at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the block of point t is row 200 t + p of a 10000-row array. -/
theorem row_lt (t : Fin cfg1.N) (p : Fin 200) : t.val * 200 + p.val < 10000 := by
  have ht : t.val < 50 := lt_of_lt_of_eq t.isLt N_1
  have hp := p.isLt
  omega

/-- The left operand's block at point t is rows 200 t … 200 t + 199 of the left array. -/
theorem lhs_blk_apply (c : Dev nD) (t : Fin cfg1.N) (p : Fin 200) (k : Fin 10000) :
    (iblk1 V c 0 t : Vec Ideal S200x10000 .f32) (ix2 p k)
      = (V c main_arg1 : S10000x10000.Idx → EReal) (ix2 ⟨t.val * 200 + p.val, row_lt t p⟩ k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 200 + 1 * p.val = t.val * 200 + p.val; rw [e0]; omega
  | ⟨1, _⟩ => show win1_0.index t (1 : Fin 2) * 10000 + 1 * k.val = k.val; rw [e1]; omega

/-- The right operand's block at every point is the whole right array. -/
theorem rhs_blk_apply (c : Dev nD) (t : Fin cfg1.N) (k : Fin 10000) (q : Fin 128) :
    (iblk1 V c 1 t : Vec Ideal S10000x128 .bf16) (ix2 k q) = (V c main_v1 : S10000x128.Idx → EReal) (ix2 k q) := by
  obtain ⟨-, -, e2, e3, -⟩ := idx_facts t
  unfold iblk1
  rw [View.read_apply]
  show V c main_v1 _ = V c main_v1 _
  congr 1
  funext a
  apply Fin.ext
  match a with
  | ⟨0, _⟩ => show win1_1.index t (0 : Fin 2) * 10000 + 1 * k.val = k.val; rw [e2]; omega
  | ⟨1, _⟩ => show win1_1.index t (1 : Fin 2) * 128 + 1 * q.val = q.val; rw [e3]; omega

/-- Entry (p, q) of the result's block at point t sits at entry (200 t + p, q) of the result array. -/
theorem out_emb (t : Fin cfg1.N) (p : Fin 200) (q : Fin 128) :
    ((cfg1.win 2).blk t).view.emb (ix2 p q) = (ix2 ⟨t.val * 200 + p.val, row_lt t p⟩ q : S10000x128.Idx) := by
  obtain ⟨-, -, -, -, e4, e5⟩ := idx_facts t
  funext a
  apply Fin.ext
  match a with
  | ⟨0, _⟩ => show win1_2.index t (0 : Fin 2) * 200 + 1 * p.val = t.val * 200 + p.val; rw [e4]; omega
  | ⟨1, _⟩ => show win1_2.index t (1 : Fin 2) * 128 + 1 * q.val = q.val; rw [e5]; omega

/-- What point t writes back is block t of the product of the two arrays as the region finds them. -/
theorem flushed_eq (c : Dev nD) (t : Fin cfg1.N) :
    (dat1 V c).flushed 2 t
      = ((cfg1.win 2).blk t).view.read (Elt Ideal) (Cert.Hand.Spec.mm (V c main_arg1) (V c main_v1)) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x128) hz]
  funext j
  obtain ⟨p, q, rfl⟩ : ∃ (p : Fin 200) (q : Fin 128), j = ix2 p q := ⟨j 0, j 1, eq_ix2 j⟩
  rw [View.read_apply, out_emb t p q, Cert.Hand.Spec.mm_apply]
  refine (pay_apply _ _ p q).trans ?_
  refine Finset.sum_congr rfl fun k _ => ?_
  rw [lhs_blk_apply V c t p k, rhs_blk_apply V c t k q]

/-- An index of the result array is in point t's block iff each coordinate is in the block's range on its axis. -/
theorem mem_blk (t : Fin cfg1.N) (i : S10000x128.Idx) :
    i ∈ ((cfg1.win 2).blk t).view.set
      ↔ ∀ a : Fin 2, win1_2.index t a * S200x128.size a ≤ (i a).val
          ∧ (i a).val < win1_2.index t a * S200x128.size a + S200x128.size a := by
  show i ∈ ((View.whole main_v2).slice (win1_2.rect t)).set ↔ _
  rw [View.set_slice_whole, Rect.mem_set_unit]
  exact Iff.rfl

/-- The blocks tile the rows: row r of the result array lies in the block of point r / 200. -/
theorem cover (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 50 := N_1
  let t : Fin cfg1.N := ⟨(i 0).val / 200, by rw [hN]; omega⟩
  obtain ⟨-, -, -, -, e4, e5⟩ := idx_facts t
  have ht : t.val = (i 0).val / 200 := rfl
  refine ⟨t, flush1_2 t, ?_⟩
  rw [mem_blk]
  intro a
  match a with
  | ⟨0, _⟩ =>
    show win1_2.index t (0 : Fin 2) * 200 ≤ (i 0).val ∧ (i 0).val < win1_2.index t (0 : Fin 2) * 200 + 200
    rw [e4, ht]; omega
  | ⟨1, _⟩ =>
    show win1_2.index t (1 : Fin 2) * 128 ≤ (i 1).val ∧ (i 1).val < win1_2.index t (1 : Fin 2) * 128 + 128
    rw [e5]; omega

/-- After the region the result array holds the product adj · xw of the two arrays as the region found them. -/
theorem arr_eq (c : Dev nD) :
    (dat1 V c).arrAt 2 cfg1.N = Cert.Hand.Spec.mm (V c main_arg1) (V c main_v1) :=
  (dat1 V c).arrAt_eq_of_cover 2 (Cert.Hand.Spec.mm (V c main_arg1) (V c main_v1))
    (fun t _ => flushed_eq V c t) cover

end Cert.Hand.Zv

end
-- ==== Proof.DecodeBlocks.lean ====
/-
  The decoder's blocks and its output array.

  The decoder runs over 512 grid points. Point t reads columns t*1024 … t*1024 + 1023 of the 2 × 524288 edge list and the
  whole of the node embeddings and of the four weight arrays, and writes rows t*1024 … t*1024 + 1023 of the 524288 × 1 output.
  Distinct points write disjoint row blocks, so entry t*1024 + y of the final output array is entry y of what point t's
  body leaves in its block; and each input block, read at an index, is the corresponding entry of its array. This holds
  for any contents of the arrays at the region's entry. The body's arithmetic stays folded here.
-/
import proofs.«405411_j24885040513647_3_alg».proof.Proof.Gen.KernelIdeal.Frame
import Idealize.ShloMosaic.Lib.Pipeline.Value
import Idealize.ShloMosaic.Lib.ValueIdx

set_option maxRecDepth 16384

noncomputable section

namespace Cert.Hand.DecodeBlocks

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The block indices at a grid point -/

/-- The index maps over the 512 grid points: the output moves one block of rows per point, the edge list one block of
    columns per point, and the five whole-array windows stay at block (0, 0). -/
theorem idx_facts : ∀ t : Fin cfg2.N,
    win2_6.index t (0 : Fin 2) = t.val ∧ win2_6.index t (1 : Fin 2) = 0
    ∧ win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Distinct points write distinct output blocks: the output's block row is the point's number. -/
theorem idx_inj : ∀ t t' : Fin cfg2.N, win2_6.index t = win2_6.index t' → t = t' := fun t t' h => by
  apply Fin.ext
  have h0 := congrFun h (0 : Fin 2)
  rw [(idx_facts t).1, (idx_facts t').1] at h0
  exact h0

/-- So two points' output blocks share no index of the array. -/
theorem disjoint_blocks : ∀ t t' : Fin cfg2.N, (cfg2.win 6).flush t = true → (cfg2.win 6).flush t' = true → t ≠ t' →
    Disjoint ((cfg2.win 6).blk t).view.set ((cfg2.win 6).blk t').view.set :=
  fun t t' _ _ hne => (cfg2.win 6).disjoint_blk fun h => hne (idx_inj t t' h)

/-- Row t*1024 + y is one of the 524288 rows: t is below 512 and y below 1024. -/
theorem edge_lt (t : Fin cfg2.N) (y : Fin 1024) : t.val * 1024 + y.val < 524288 := by
  have h : t.val < 512 := lt_of_lt_of_eq t.isLt N_2
  have := y.isLt
  omega

/-! ## The output array -/

/-- Entry y of point t's output block sits in the array at row t*1024 + y: a block's coordinate is the block index times
    the block's size plus the coordinate inside the block. -/
theorem emb_out (t : Fin cfg2.N) (y : Fin 1024) :
    ((cfg2.win 6).blk t).view.emb (ix2 y (0 : Fin 1)) = ix2 (⟨t.val * 1024 + y.val, edge_lt t y⟩ : Fin 524288) (0 : Fin 1) := by
  funext a
  apply Fin.ext
  match a with
  | ⟨0, _⟩ => show win2_6.index t (0 : Fin 2) * 1024 + 1 * y.val = t.val * 1024 + y.val; rw [(idx_facts t).1]; omega
  | ⟨1, _⟩ => show win2_6.index t (1 : Fin 2) * 1 + 1 * 0 = 0; rw [(idx_facts t).2.1]

/-- Entry t*1024 + y of the output array after the last point is entry y of what point t's body leaves: no other point's
    block meets point t's, and the block written back is the whole of what the body left (the blocks tile the array,
    none is cut at its end). -/
theorem arr_apply (c : Dev nD) (t : Fin cfg2.N) (y : Fin 1024) :
    (dat2 V c).arrAt 6 cfg2.N (ix2 (⟨t.val * 1024 + y.val, edge_lt t y⟩ : Fin 524288) (0 : Fin 1))
      = out2_6 (iblk2 V c 0 t) (iblk2 V c 1 t) (iblk2 V c 2 t) (iblk2 V c 3 t) (iblk2 V c 4 t) (iblk2 V c 5 t) (ix2 y (0 : Fin 1)) := by
  have h := (dat2 V c).arrAt_emb_eq_flushed 6 disjoint_blocks t (flush2_6 t) (ix2 y (0 : Fin 1))
  rw [emb_out t y] at h
  refine h.trans ?_
  show (cfg2.win 6).cut (grid2.coords t) ((dat2 V c).after 6 t) (ix2 y (0 : Fin 1)) = _
  rw [after2_6]
  rfl

/-! ## The input blocks -/

/-- Entry (a, y) of point t's block of the edge list is entry (a, t*1024 + y) of the list. -/
theorem iblk_edges (c : Dev nD) (t : Fin cfg2.N) (a : Fin 2) (y : Fin 1024) :
    iblk2 V c 0 t (ix2 a y) = V c main_v5 (ix2 a (⟨t.val * 1024 + y.val, edge_lt t y⟩ : Fin 524288)) := by
  unfold iblk2
  rw [View.read_apply]
  show V c main_v5 (((cfg2.win 0).blk t).view.emb (ix2 a y)) = _
  refine congrArg (V c main_v5) ?_
  funext d
  apply Fin.ext
  obtain ⟨_, _, e0, e1, _⟩ := idx_facts t
  match d with
  | ⟨0, _⟩ => show win2_0.index t (0 : Fin 2) * 2 + 1 * a.val = a.val; rw [e0]; omega
  | ⟨1, _⟩ => show win2_0.index t (1 : Fin 2) * 1024 + 1 * y.val = t.val * 1024 + y.val; rw [e1]; omega

/-- The node embeddings' block is the whole 10000 × 128 array at every point. -/
theorem iblk_z (c : Dev nD) (t : Fin cfg2.N) : iblk2 V c 1 t = V c main_v3 := by
  funext j
  unfold iblk2
  rw [View.read_apply]
  show V c main_v3 (((cfg2.win 1).blk t).view.emb j) = V c main_v3 j
  refine congrArg (V c main_v3) ?_
  funext d
  apply Fin.ext
  obtain ⟨_, _, _, _, e0, e1, _⟩ := idx_facts t
  match d with
  | ⟨0, _⟩ => show win2_1.index t (0 : Fin 2) * 10000 + 1 * (j 0).val = (j 0).val; rw [e0]; omega
  | ⟨1, _⟩ => show win2_1.index t (1 : Fin 2) * 128 + 1 * (j 1).val = (j 1).val; rw [e1]; omega

/-- The first half of W2 is read whole at every point. -/
theorem iblk_w2a (c : Dev nD) (t : Fin cfg2.N) : iblk2 V c 2 t = V c main_v6 := by
  funext j
  unfold iblk2
  rw [View.read_apply]
  show V c main_v6 (((cfg2.win 2).blk t).view.emb j) = V c main_v6 j
  refine congrArg (V c main_v6) ?_
  funext d
  apply Fin.ext
  obtain ⟨_, _, _, _, _, _, e0, e1, _⟩ := idx_facts t
  match d with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- The second half of W2 is read whole at every point. -/
theorem iblk_w2b (c : Dev nD) (t : Fin cfg2.N) : iblk2 V c 3 t = V c main_v7 := by
  funext j
  unfold iblk2
  rw [View.read_apply]
  show V c main_v7 (((cfg2.win 3).blk t).view.emb j) = V c main_v7 j
  refine congrArg (V c main_v7) ?_
  funext d
  apply Fin.ext
  obtain ⟨_, _, _, _, _, _, _, _, e0, e1, _⟩ := idx_facts t
  match d with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- The first half of W3 is read whole at every point. -/
theorem iblk_w3a (c : Dev nD) (t : Fin cfg2.N) : iblk2 V c 4 t = V c main_v8 := by
  funext j
  unfold iblk2
  rw [View.read_apply]
  show V c main_v8 (((cfg2.win 4).blk t).view.emb j) = V c main_v8 j
  refine congrArg (V c main_v8) ?_
  funext d
  apply Fin.ext
  obtain ⟨_, _, _, _, _, _, _, _, _, _, e0, e1, _⟩ := idx_facts t
  match d with
  | ⟨0, _⟩ => show win2_4.index t (0 : Fin 2) * 128 + 1 * (j 0).val = (j 0).val; rw [e0]; omega
  | ⟨1, _⟩ => show win2_4.index t (1 : Fin 2) * 1 + 1 * (j 1).val = (j 1).val; rw [e1]; omega

/-- The second half of W3 is read whole at every point. -/
theorem iblk_w3b (c : Dev nD) (t : Fin cfg2.N) : iblk2 V c 5 t = V c main_v9 := by
  funext j
  unfold iblk2
  rw [View.read_apply]
  show V c main_v9 (((cfg2.win 5).blk t).view.emb j) = V c main_v9 j
  refine congrArg (V c main_v9) ?_
  funext d
  apply Fin.ext
  obtain ⟨_, _, _, _, _, _, _, _, _, _, _, _, e0, e1⟩ := idx_facts t
  match d with
  | ⟨0, _⟩ => show win2_5.index t (0 : Fin 2) * 128 + 1 * (j 0).val = (j 0).val; rw [e0]; omega
  | ⟨1, _⟩ => show win2_5.index t (1 : Fin 2) * 1 + 1 * (j 1).val = (j 1).val; rw [e1]; omega

end Cert.Hand.DecodeBlocks

end
-- ==== Proof.DecodeTail.lean ====
/-
  The decoder's tail at one edge.

  After the two gathered row blocks ZI and ZJ (1024 edges by 128 features each), the body forms
  h = relu(ZI) · W2a + relu(ZJ) · W2b, the logit h · W3a + (ZI ∘ ZJ) · W3b, and its logistic. Over the extended
  reals every format change is the identity and every product into the zero array is a plain finite sum, so the
  value at edge y is the logistic of
    ∑ k, (∑ j, max(ZI[y,j], 0) · W2a[j,k] + ∑ j, max(ZJ[y,j], 0) · W2b[j,k]) · W3a[k] + ∑ k, (ZI[y,k] · ZJ[y,k]) · W3b[k].
-/
import proofs.«405411_j24885040513647_3_alg».proof.Proof.Gen.KernelIdeal.Frame
import proofs.«405411_j24885040513647_3_alg».proof.Proof.Spec
import proofs.«405411_j24885040513647_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.Tail

open Cert.KernelIdeal Cert.KernelIdeal.Gen Idealize.ShloMosaic Idealize.ShloMosaic.ValueIdx

/-- The 1024×128 by 128×128 product contracts columns against rows, nothing batched. -/
theorem plain128 : PlainDot.IsPlain dot_S1024x128_S128x128_S1024x128_1_0_0_1_n_n := ⟨rfl, rfl, rfl, rfl, rfl, rfl⟩
/-- So does the 1024×128 by 128×1 product. -/
theorem plain1 : PlainDot.IsPlain dot_S1024x128_S128x1_S1024x1_1_0_0_1_n_n := ⟨rfl, rfl, rfl, rfl, rfl, rfl⟩

/-- The hidden vector against the first half of W3, at edge y: the sum over k of
    (relu(ZI[y]) · W2a + relu(ZJ[y]) · W2b)[k] · W3a[k]. -/
theorem pay22_apply (v1 v3 : IVec S1024 32) (v87 v89 : FVec Ideal S1024x128 .f32) (v90 : Vec Ideal S2000x128 .bf16)
    (v118 v122 : Vec Ideal S128x128 .f32) (v128 : Vec Ideal S128x1 .f32) (y : Fin 1024) :
    k2_pay22 v1 v3 v87 v89 v90 v118 v122 v128 (ix2 y (0 : Fin 1))
      = ∑ k : Fin 128, ((∑ j : Fin 128, max (k2_pay20 v1 v87 v90 (ix2 y j)) 0 * v118 (ix2 j k))
          + ∑ j : Fin 128, max (k2_pay21 v3 v89 v90 (ix2 y j)) 0 * v122 (ix2 j k)) * v128 (ix2 k (0 : Fin 1)) := by
  unfold k2_pay22
  refine (plain1.matmul_zero_apply none _ _ y 0).trans ?_
  refine Finset.sum_congr rfl fun k _ => ?_
  simp only [matmul, truncf_apply, addf_apply, shapeCast_self]
  rw [plain128.matmul_zero_apply, plain128.matmul_zero_apply]
  simp only [truncf_apply, maximumf_apply, broadcast_apply, Ideal.ofBits_def, Ideal.ofBits_zero_f32]

/-- The product of the two gathered rows, entry by entry. -/
theorem pay23_apply (v1 v3 : IVec S1024 32) (v87 v89 : FVec Ideal S1024x128 .f32) (v90 : Vec Ideal S2000x128 .bf16)
    (y : Fin 1024) (k : Fin 128) :
    k2_pay23 v1 v3 v87 v89 v90 (ix2 y k) = k2_pay20 v1 v87 v90 (ix2 y k) * k2_pay21 v3 v89 v90 (ix2 y k) := by
  unfold k2_pay23
  simp only [truncf_apply, mulf_apply]

/-- A reshape to the same shape changes nothing. -/
theorem pay24_eq (v133 : Vec Ideal S128x1 .f32) : k2_pay24 v133 = v133 := by
  unfold k2_pay24
  exact shapeCast_self _ _

/-- The tail of the decoder at edge y over the two gathered row blocks ZI, ZJ: the logistic of
    (relu(ZI[y]) · W2a + relu(ZJ[y]) · W2b) · W3a + (ZI[y] ∘ ZJ[y]) · W3b. -/
theorem tail_apply (v1 v3 : IVec S1024 32) (v87 v89 : FVec Ideal S1024x128 .f32) (v90 : Vec Ideal S2000x128 .bf16) (v118 v122 : Vec Ideal S128x128 .f32) (v128 v133 : Vec Ideal S128x1 .f32) (y : Fin 1024) :
    k2_pay1 (k2_pay22 v1 v3 v87 v89 v90 v118 v122 v128) (k2_pay23 v1 v3 v87 v89 v90) (k2_pay24 v133) (ix2 y (0 : Fin 1))
      = Ideal.logistic ((∑ k : Fin 128, ((∑ j : Fin 128, max (k2_pay20 v1 v87 v90 (ix2 y j)) 0 * v118 (ix2 j k)) + ∑ j : Fin 128, max (k2_pay21 v3 v89 v90 (ix2 y j)) 0 * v122 (ix2 j k)) * v128 (ix2 k (0 : Fin 1)))
          + ∑ k : Fin 128, (k2_pay20 v1 v87 v90 (ix2 y k) * k2_pay21 v3 v89 v90 (ix2 y k)) * v133 (ix2 k (0 : Fin 1))) := by
  rw [pay24_eq]
  unfold k2_pay1
  show FloatOps.logistic (addf _ _ (ix2 y (0 : Fin 1))) = _
  rw [Ideal.logistic_def, addf_apply, pay22_apply]
  simp only [matmul]
  rw [plain1.matmul_zero_apply]
  simp only [truncf_apply, pay23_apply]

/-- The offset (0, 0) is the zero offset. -/
theorem hz : (![0, 0] : Fin 2 → Nat) = fun _ => 0 := funext fun a => by fin_cases a <;> rfl

/-- The body's result at edge y, given what the two gathered row blocks hold at row y: the whole-buffer loads of the
    four weight blocks are the blocks themselves, the one store covers the buffer, and the tail is read at the rows. -/
theorem out_apply_of (x0 : Vec Ideal S2x1024 .i32) (x1 : Vec Ideal S10000x128 .bf16) (x2 x3 : Vec Ideal S128x128 .f32) (x4 x5 : Vec Ideal S128x1 .f32) (y : Fin 1024)
    (zi zj : Fin 128 → EReal)
    (hzi : ∀ d : Fin 128, k2_pay20 (k2_pay2 (View.ld x0 r2_0)) (k2_pay16 (k2_pay2 (View.ld x0 r2_0)) (k2_pay6 (View.ld x0 r2_0) (View.ld x1 r2_2)) (k2_pay8 (View.ld x1 r2_3)) (k2_pay10 (View.ld x0 r2_0)) (constant S1024x128 .f32 0x00000000#32) (View.ld x1 r2_4) (View.ld x1 r2_5)) (View.ld x1 r2_6) (ix2 y d) = zi d)
    (hzj : ∀ d : Fin 128, k2_pay21 (k2_pay3 (View.ld x0 r2_1)) (k2_pay17 (k2_pay3 (View.ld x0 r2_1)) (k2_pay7 (View.ld x0 r2_1) (View.ld x1 r2_2)) (k2_pay8 (View.ld x1 r2_3)) (k2_pay11 (View.ld x0 r2_1)) (View.ld x1 r2_4) (View.ld x1 r2_5)) (View.ld x1 r2_6) (ix2 y d) = zj d) :
    out2_6 x0 x1 x2 x3 x4 x5 (ix2 y (0 : Fin 1))
      = Ideal.logistic ((∑ k : Fin 128, ((∑ j : Fin 128, max (zi j) 0 * x2 (ix2 j k)) + ∑ j : Fin 128, max (zj j) 0 * x3 (ix2 j k)) * x4 (ix2 k (0 : Fin 1)))
          + ∑ k : Fin 128, (zi k * zj k) * x5 (ix2 k (0 : Fin 1))) := by
  unfold out2_6
  rw [View.canon_unit_zero hz]
  rw [View.ld_unit_zero (S := S128x128) hz, View.ld_unit_zero (S := S128x128) hz, View.ld_unit_zero (S := S128x1) hz, View.ld_unit_zero (S := S128x1) hz]
  refine (tail_apply _ _ _ _ _ x2 x3 x4 x5 y).trans ?_
  simp only [hzi, hzj]

end Cert.Hand.Tail

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.DecodeGather.lean ====
/-
  The decoder's gather, as the extended reals see it.

  For each edge y of a block of 1024 edges the decoder needs row i of the 10000 × 128 node table, i the edge's
  endpoint (a 32-bit word). It obtains the row without indexing: the table is cut into five blocks of 2000 rows, and
  for block c the body forms the 1024 × 2000 one-hot matrix whose entry (y, n) is 1 where the row number c·2000 + n,
  as a 32-bit word, equals the endpoint word, and 0 elsewhere; the product of that matrix with the block adds, into an
  accumulator started at zero, the sum over n of onehot (y, n) · table (c·2000 + n, d).

  Over the extended reals 0 · v = 0 and 1 · v = v for every v, infinite ones included, and 0 + v = v, so no finiteness
  is needed: the five accumulated sums are one sum over the 10000 rows with at most one non-zero term. A row number
  k < 10000 < 2^32 gives the endpoint word exactly when k is the word's value; so the sum is the table's row at the
  word's value when that is below 10000 and the zero row otherwise — the specification's `row`.

  The file: the pure statement about one-hot sums (`onehot_sum`, `onehot_blocks`); the one-hot factor at an entry
  (`onehot_apply`) and one block's product (`chunk_apply`); the loads at an entry (`ld_rows_apply`, `ld_ids_apply`);
  each accumulation step of the body's payloads (`pay6_apply` … `pay21_apply`); and the two results `zi_apply`,
  `zj_apply` for the first and second endpoints.
-/
import proofs.«405411_j24885040513647_3_alg».proof.Proof.Gen.KernelIdeal.Frame
import proofs.«405411_j24885040513647_3_alg».proof.Proof.Spec
import proofs.«405411_j24885040513647_3_alg».proof.Proof.LibPlainDot
import proofs.«405411_j24885040513647_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.Gather

open Cert.KernelIdeal Cert.KernelIdeal.Gen Idealize.ShloMosaic Idealize.ShloMosaic.ValueIdx

/-- A 32-bit word made from a natural number below 2^32 equals a given word exactly when the number is the word's
    value. -/
theorem ofNat_eq_iff (k : Nat) (hk : k < 2 ^ 32) (id : BitVec 32) : BitVec.ofNat 32 k = id ↔ k = id.toNat := by
  constructor
  · intro h
    rw [← h, BitVec.toNat_ofNat, Nat.mod_eq_of_lt hk]
  · intro h
    apply BitVec.eq_of_toNat_eq
    rw [BitVec.toNat_ofNat, Nat.mod_eq_of_lt hk, h]

/-- A one-hot weighted sum over the 10000 rows: the term at the word's value when that is a row, else nothing. -/
theorem onehot_sum (f : Fin 10000 → EReal) (id : BitVec 32) :
    ∑ k : Fin 10000, (if BitVec.ofNat 32 k.val = id then (1 : EReal) else 0) * f k
      = if h : id.toNat < 10000 then f ⟨id.toNat, h⟩ else 0 := by
  have hk : ∀ k : Fin 10000, k.val < 2 ^ 32 := fun k => lt_trans k.isLt (by norm_num)
  by_cases h : id.toNat < 10000
  · rw [dif_pos h]
    rw [Finset.sum_eq_single (⟨id.toNat, h⟩ : Fin 10000)]
    · rw [if_pos ((ofNat_eq_iff _ (hk _) id).mpr rfl), one_mul]
    · intro b _ hb
      rw [if_neg (fun e => hb (Fin.ext ((ofNat_eq_iff _ (hk b) id).mp e))), zero_mul]
    · intro hn
      exact absurd (Finset.mem_univ _) hn
  · rw [dif_neg h]
    refine Finset.sum_eq_zero fun k _ => ?_
    rw [if_neg (fun e => h (by rw [← (ofNat_eq_iff _ (hk k) id).mp e]; exact k.isLt)), zero_mul]

/-- The same sum cut into five blocks of 2000 rows, accumulated from zero. -/
theorem onehot_blocks (f : Fin 10000 → EReal) (id : BitVec 32)
    (h0 : ∀ n : Fin 2000, 0 + n.val < 10000) (h1 : ∀ n : Fin 2000, 2000 + n.val < 10000)
    (h2 : ∀ n : Fin 2000, 4000 + n.val < 10000) (h3 : ∀ n : Fin 2000, 6000 + n.val < 10000)
    (h4 : ∀ n : Fin 2000, 8000 + n.val < 10000) :
    ((((0 + ∑ n : Fin 2000, (if BitVec.ofNat 32 (0 + n.val) = id then (1 : EReal) else 0) * f ⟨0 + n.val, h0 n⟩)
      + ∑ n : Fin 2000, (if BitVec.ofNat 32 (2000 + n.val) = id then (1 : EReal) else 0) * f ⟨2000 + n.val, h1 n⟩)
      + ∑ n : Fin 2000, (if BitVec.ofNat 32 (4000 + n.val) = id then (1 : EReal) else 0) * f ⟨4000 + n.val, h2 n⟩)
      + ∑ n : Fin 2000, (if BitVec.ofNat 32 (6000 + n.val) = id then (1 : EReal) else 0) * f ⟨6000 + n.val, h3 n⟩)
      + ∑ n : Fin 2000, (if BitVec.ofNat 32 (8000 + n.val) = id then (1 : EReal) else 0) * f ⟨8000 + n.val, h4 n⟩
      = if h : id.toNat < 10000 then f ⟨id.toNat, h⟩ else 0 := by
  rw [← onehot_sum f id,
    ← Cert.Hand.BlockSum.sum_blocks_cast 5 2000 10000 rfl
      (fun k : Fin 10000 => (if BitVec.ofNat 32 k.val = id then (1 : EReal) else 0) * f k),
    Fin.sum_univ_five, zero_add]
  rfl

/-- The word a one-bit comparison result widens to, read as a signed integer, is 1 when the bit is set and 0 when
    it is not. -/
theorem bit_toInt (c : Bool) : (((BitVec.ofBool c).setWidth 32).toInt : ℝ) = if c then 1 else 0 := by
  cases c <;> simp <;> rfl

set_option maxHeartbeats 50000 in
/-- The one-hot factor at edge y and chunk position n: 1 where the row number base + n, as a 32-bit word, is the
    edge's endpoint word, else 0. -/
theorem onehot_apply (ids : IVec S1024 32) (base : Nat) (y : Fin 1024) (n : Fin 2000) :
    (truncf .bf16 (sitofp .f32 (extui 32 (cmpi .eq (addi (broadcast S1024x2000 (BitVec.ofNat 32 base))
        (iota .tc S1024x2000 32 [1] iota_S1024x2000_d1_w32))
        (broadcastTo S1024x2000 (shapeCast S1024x1 ids shapeCasts_S1024_S1024x1) broadcasts_S1024x1_S1024x2000))
        natLt_1_32)) bitsLt_bf16_f32 : FVec Ideal S1024x2000 .bf16) (ix2 y n)
      = if BitVec.ofNat 32 (base + n.val) = ids (ix1 y) then (1 : EReal) else 0 := by
  have e1 : iota .tc S1024x2000 32 [1] iota_S1024x2000_d1_w32 (ix2 y n) = BitVec.ofNat 32 n.val :=
    iota_single_apply .tc S1024x2000 32 1 iota_S1024x2000_d1_w32 (ix2 y n)
  have e2 : broadcastTo S1024x2000 (shapeCast S1024x1 ids shapeCasts_S1024_S1024x1) broadcasts_S1024x1_S1024x2000 (ix2 y n)
      = ids (ix1 y) := by
    refine (broadcastTo_apply _ broadcasts_S1024x1_S1024x2000 (ix2 y n) (ix2 y (0 : Fin 1)) ?_).trans ?_
    · intro a
      match a with
      | ⟨0, _⟩ => rfl
      | ⟨1, _⟩ => rfl
    · refine shapeCast_apply ids shapeCasts_S1024_S1024x1 (ix2 y (0 : Fin 1)) (ix1 y) ?_
      rw [Shape.rowMajor_val_one, Shape.rowMajor_val_two]
      show y.val = y.val * 1 + 0
      omega
  show (((( IntOp.cmpi .eq (IntOp.addi (BitVec.ofNat 32 base) (iota .tc S1024x2000 32 [1] iota_S1024x2000_d1_w32 (ix2 y n)))
      (broadcastTo S1024x2000 (shapeCast S1024x1 ids shapeCasts_S1024_S1024x1) broadcasts_S1024x1_S1024x2000 (ix2 y n))).setWidth 32).toInt : ℝ) : EReal) = _
  rw [e1, e2]
  show ((((BitVec.ofBool (BitVec.ofNat 32 base + BitVec.ofNat 32 n.val == ids (ix1 y))).setWidth 32).toInt : ℝ) : EReal) = _
  rw [bit_toInt, ← BitVec.ofNat_add]
  by_cases h : BitVec.ofNat 32 (base + n.val) = ids (ix1 y)
  · rw [if_pos h, if_pos (by simpa using h)]; norm_num
  · rw [if_neg h, if_neg (by simpa using h)]; norm_num

/-- The one-hot matrix of a chunk: entry (y, n) is 1 where row number base + n is edge y's endpoint word. -/
abbrev hot (ids : IVec S1024 32) (base : Nat) : FVec Ideal S1024x2000 .bf16 :=
  truncf .bf16 (sitofp .f32 (extui 32 (cmpi .eq (addi (broadcast S1024x2000 (BitVec.ofNat 32 base))
    (iota .tc S1024x2000 32 [1] iota_S1024x2000_d1_w32))
    (broadcastTo S1024x2000 (shapeCast S1024x1 ids shapeCasts_S1024_S1024x1) broadcasts_S1024x1_S1024x2000))
    natLt_1_32)) bitsLt_bf16_f32

set_option maxHeartbeats 50000 in
/-- One chunk's product into the zero accumulator, at entry (y, d): the one-hot weighted sum of the chunk's column d. -/
theorem chunk_apply (ids : IVec S1024 32) (base : Nat) (chunk : FVec Ideal S2000x128 .bf16) (y : Fin 1024) (d : Fin 128) :
    matmul dot_S1024x2000_S2000x128_S1024x128_1_0_0_1_n_n none (hot ids base) chunk
        (constant S1024x128 .f32 0x00000000#32) (ix2 y d)
      = ∑ n : Fin 2000, (if BitVec.ofNat 32 (base + n.val) = ids (ix1 y) then (1 : EReal) else 0) * chunk (ix2 n d) := by
  refine (PlainDot.IsPlain.matmul_zero_apply (d := dot_S1024x2000_S2000x128_S1024x128_1_0_0_1_n_n)
    ⟨rfl, rfl, rfl, rfl, rfl, rfl⟩ none (hot ids base) chunk y d).trans ?_
  exact Finset.sum_congr rfl fun n _ => congrArg (· * chunk (ix2 n d)) (onehot_apply ids base y n)

set_option maxHeartbeats 50000 in
/-- A block of 2000 rows of the node table starting at row base, read at (n, d), is the table at (base + n, d). -/
theorem ld_rows_apply (x1 : Vec Ideal S10000x128 .bf16) (base : Nat)
    (inb : ∀ a, (![base, 0] : Fin 2 → Nat) a + S2000x128.size a ≤ S10000x128.size a) (n : Fin 2000) (d : Fin 128)
    (h : base + n.val < 10000) :
    View.ld x1 (Rect.unit (s := S10000x128) ![base, 0] S2000x128.size inb) (ix2 n d) = x1 (ix2 ⟨base + n.val, h⟩ d) := by
  show x1 _ = x1 _
  refine congrArg x1 (funext fun a => Fin.ext ?_)
  match a with
  | ⟨0, _⟩ => show base + 1 * n.val = base + n.val; omega
  | ⟨1, _⟩ => show 0 + 1 * d.val = d.val; omega

set_option maxHeartbeats 50000 in
/-- Row a of the edge block, viewed as a vector of 1024 words, read at y. -/
theorem ld_ids_apply (x0 : Vec Ideal S2x1024 .i32) (a : Nat) (ha : a < 2)
    (inb : ∀ b, (![a, 0] : Fin 2 → Nat) b + S1x1024.size b ≤ S2x1024.size b) (y : Fin 1024) :
    (shapeCast S1024 (View.ld x0 (Rect.unit (s := S2x1024) ![a, 0] S1x1024.size inb)) shapeCasts_S1x1024_S1024 : IVec S1024 32) (ix1 y)
      = x0 (ix2 (⟨a, ha⟩ : Fin 2) y) := by
  refine (shapeCast_apply _ shapeCasts_S1x1024_S1024 (ix1 y) (ix2 (0 : Fin 1) y) ?_).trans ?_
  · rw [Shape.rowMajor_val_one, Shape.rowMajor_val_two]
    show 0 * 1024 + y.val = y.val
    omega
  · show x0 _ = x0 _
    refine congrArg x0 (funext fun b => Fin.ext ?_)
    match b with
    | ⟨0, _⟩ => show a + 1 * 0 = a; omega
    | ⟨1, _⟩ => show 0 + 1 * y.val = y.val; omega

/-- The one-hot weighted sum of column d of a chunk whose first row is row number base. -/
abbrev T (ids : IVec S1024 32) (y : Fin 1024) (d : Fin 128) (base : Nat) (c : Vec Ideal S2000x128 .bf16) : EReal :=
  ∑ n : Fin 2000, (if BitVec.ofNat 32 (base + n.val) = ids (ix1 y) then (1 : EReal) else 0) * c (ix2 n d)

set_option maxHeartbeats 50000 in
/-- The first step, first endpoints: zero plus the first chunk's sum. -/
theorem pay6_apply (v0 : Vec Ideal S1x1024 .i32) (c0 : Vec Ideal S2000x128 .bf16) (y : Fin 1024) (d : Fin 128) :
    k2_pay6 v0 c0 (ix2 y d) = 0 + T (k2_pay2 v0) y d 0 c0 := by
  show Ideal.ofBits .f32 0x00000000#32
      + matmul dot_S1024x2000_S2000x128_S1024x128_1_0_0_1_n_n none (hot (k2_pay2 v0) 0)
          (shapeCast S2000x128 c0 shapeCasts_S2000x128_S2000x128) (constant S1024x128 .f32 0x00000000#32) (ix2 y d) = _
  rw [shapeCast_self, chunk_apply, Ideal.ofBits_zero_f32]

set_option maxHeartbeats 50000 in
/-- The first step, second endpoints. -/
theorem pay7_apply (v2 : Vec Ideal S1x1024 .i32) (c0 : Vec Ideal S2000x128 .bf16) (y : Fin 1024) (d : Fin 128) :
    k2_pay7 v2 c0 (ix2 y d) = 0 + T (k2_pay3 v2) y d 0 c0 := by
  show Ideal.ofBits .f32 0x00000000#32
      + matmul dot_S1024x2000_S2000x128_S1024x128_1_0_0_1_n_n none (hot (k2_pay3 v2) 0)
          (shapeCast S2000x128 c0 shapeCasts_S2000x128_S2000x128) (constant S1024x128 .f32 0x00000000#32) (ix2 y d) = _
  rw [shapeCast_self, chunk_apply, Ideal.ofBits_zero_f32]

set_option maxHeartbeats 50000 in
/-- Steps two to four, first endpoints: the accumulator plus the sums of the second, third and fourth chunks. -/
theorem pay16_apply (v0 : Vec Ideal S1x1024 .i32) (acc : FVec Ideal S1024x128 .f32) (c1 c2 c3 : Vec Ideal S2000x128 .bf16)
    (y : Fin 1024) (d : Fin 128) :
    k2_pay16 (k2_pay2 v0) acc (k2_pay8 c1) (k2_pay10 v0) (constant S1024x128 .f32 0x00000000#32) c2 c3 (ix2 y d)
      = ((acc (ix2 y d) + T (k2_pay2 v0) y d 2000 c1) + T (k2_pay2 v0) y d 4000 c2) + T (k2_pay2 v0) y d 6000 c3 := by
  show ((acc (ix2 y d)
      + matmul dot_S1024x2000_S2000x128_S1024x128_1_0_0_1_n_n none (hot (k2_pay2 v0) 2000)
          (shapeCast S2000x128 c1 shapeCasts_S2000x128_S2000x128) (constant S1024x128 .f32 0x00000000#32) (ix2 y d))
      + matmul dot_S1024x2000_S2000x128_S1024x128_1_0_0_1_n_n none (hot (k2_pay2 v0) 4000)
          (shapeCast S2000x128 c2 shapeCasts_S2000x128_S2000x128) (constant S1024x128 .f32 0x00000000#32) (ix2 y d))
      + matmul dot_S1024x2000_S2000x128_S1024x128_1_0_0_1_n_n none (hot (k2_pay2 v0) 6000)
          (shapeCast S2000x128 c3 shapeCasts_S2000x128_S2000x128) (constant S1024x128 .f32 0x00000000#32) (ix2 y d) = _
  rw [shapeCast_self, shapeCast_self, shapeCast_self, chunk_apply, chunk_apply, chunk_apply]

set_option maxHeartbeats 50000 in
/-- Steps two to four, second endpoints. -/
theorem pay17_apply (v2 : Vec Ideal S1x1024 .i32) (acc : FVec Ideal S1024x128 .f32) (c1 c2 c3 : Vec Ideal S2000x128 .bf16)
    (y : Fin 1024) (d : Fin 128) :
    k2_pay17 (k2_pay3 v2) acc (k2_pay8 c1) (k2_pay11 v2) c2 c3 (ix2 y d)
      = ((acc (ix2 y d) + T (k2_pay3 v2) y d 2000 c1) + T (k2_pay3 v2) y d 4000 c2) + T (k2_pay3 v2) y d 6000 c3 := by
  show ((acc (ix2 y d)
      + matmul dot_S1024x2000_S2000x128_S1024x128_1_0_0_1_n_n none (hot (k2_pay3 v2) 2000)
          (shapeCast S2000x128 c1 shapeCasts_S2000x128_S2000x128) (constant S1024x128 .f32 0x00000000#32) (ix2 y d))
      + matmul dot_S1024x2000_S2000x128_S1024x128_1_0_0_1_n_n none (hot (k2_pay3 v2) 4000)
          (shapeCast S2000x128 c2 shapeCasts_S2000x128_S2000x128) (constant S1024x128 .f32 0x00000000#32) (ix2 y d))
      + matmul dot_S1024x2000_S2000x128_S1024x128_1_0_0_1_n_n none (hot (k2_pay3 v2) 6000)
          (shapeCast S2000x128 c3 shapeCasts_S2000x128_S2000x128) (constant S1024x128 .f32 0x00000000#32) (ix2 y d) = _
  rw [shapeCast_self, shapeCast_self, shapeCast_self, chunk_apply, chunk_apply, chunk_apply]

set_option maxHeartbeats 50000 in
/-- The last step: the accumulator plus the fifth chunk's sum. -/
theorem pay20_apply (ids : IVec S1024 32) (acc : FVec Ideal S1024x128 .f32) (c4 : Vec Ideal S2000x128 .bf16)
    (y : Fin 1024) (d : Fin 128) :
    k2_pay20 ids acc c4 (ix2 y d) = acc (ix2 y d) + T ids y d 8000 c4 := by
  show acc (ix2 y d)
      + matmul dot_S1024x2000_S2000x128_S1024x128_1_0_0_1_n_n none (hot ids 8000)
          (shapeCast S2000x128 c4 shapeCasts_S2000x128_S2000x128) (constant S1024x128 .f32 0x00000000#32) (ix2 y d) = _
  rw [shapeCast_self, chunk_apply]

set_option maxHeartbeats 50000 in
/-- The last step, second endpoints. -/
theorem pay21_apply (ids : IVec S1024 32) (acc : FVec Ideal S1024x128 .f32) (c4 : Vec Ideal S2000x128 .bf16)
    (y : Fin 1024) (d : Fin 128) :
    k2_pay21 ids acc c4 (ix2 y d) = acc (ix2 y d) + T ids y d 8000 c4 := by
  show acc (ix2 y d)
      + matmul dot_S1024x2000_S2000x128_S1024x128_1_0_0_1_n_n none (hot ids 8000)
          (shapeCast S2000x128 c4 shapeCasts_S2000x128_S2000x128) (constant S1024x128 .f32 0x00000000#32) (ix2 y d) = _
  rw [shapeCast_self, chunk_apply]

set_option maxHeartbeats 100000 in
/-- The five chunks' sums, accumulated from zero, over the five row blocks of the node table: the table's row at the
    endpoint word's value, the zero row when that value is not a row number. -/
theorem gather_row (x1 : Vec Ideal S10000x128 .bf16) (ids : IVec S1024 32) (y : Fin 1024) (d : Fin 128) :
    ((((0 + T ids y d 0 (View.ld x1 r2_2)) + T ids y d 2000 (View.ld x1 r2_3)) + T ids y d 4000 (View.ld x1 r2_4))
        + T ids y d 6000 (View.ld x1 r2_5)) + T ids y d 8000 (View.ld x1 r2_6)
      = Cert.Hand.Spec.row x1 (ids (ix1 y)).toNat d := by
  have e : ∀ (base : Nat) (inb : ∀ a, (![base, 0] : Fin 2 → Nat) a + S2000x128.size a ≤ S10000x128.size a)
      (hb : ∀ n : Fin 2000, base + n.val < 10000),
      T ids y d base (View.ld x1 (Rect.unit (s := S10000x128) ![base, 0] S2000x128.size inb))
        = ∑ n : Fin 2000, (if BitVec.ofNat 32 (base + n.val) = ids (ix1 y) then (1 : EReal) else 0)
            * x1 (ix2 ⟨base + n.val, hb n⟩ d) :=
    fun base inb hb => Finset.sum_congr rfl fun n _ =>
      congrArg ((if BitVec.ofNat 32 (base + n.val) = ids (ix1 y) then (1 : EReal) else 0) * ·) (ld_rows_apply x1 base inb n d (hb n))
  have e0 := e 0 inb_S10000x128_S2000x128_0_0 (fun n => by have := n.isLt; omega)
  have e1 := e 2000 inb_S10000x128_S2000x128_2000_0 (fun n => by have := n.isLt; omega)
  have e2 := e 4000 inb_S10000x128_S2000x128_4000_0 (fun n => by have := n.isLt; omega)
  have e3 := e 6000 inb_S10000x128_S2000x128_6000_0 (fun n => by have := n.isLt; omega)
  have e4 := e 8000 inb_S10000x128_S2000x128_8000_0 (fun n => by have := n.isLt; omega)
  refine (congrArg₂ (· + ·) (congrArg₂ (· + ·) (congrArg₂ (· + ·) (congrArg₂ (· + ·) (congrArg (0 + ·) e0) e1) e2) e3) e4).trans ?_
  exact onehot_blocks (fun k => x1 (ix2 k d)) (ids (ix1 y)) _ _ _ _ _

/-- The first endpoints' gathered rows, as the body computes them. -/
abbrev ZI (x0 : Vec Ideal S2x1024 .i32) (x1 : Vec Ideal S10000x128 .bf16) : FVec Ideal S1024x128 .f32 :=
  k2_pay20 (k2_pay2 (View.ld x0 r2_0)) (k2_pay16 (k2_pay2 (View.ld x0 r2_0)) (k2_pay6 (View.ld x0 r2_0) (View.ld x1 r2_2)) (k2_pay8 (View.ld x1 r2_3)) (k2_pay10 (View.ld x0 r2_0)) (constant S1024x128 .f32 0x00000000#32) (View.ld x1 r2_4) (View.ld x1 r2_5)) (View.ld x1 r2_6)

/-- The second endpoints' gathered rows, as the body computes them. -/
abbrev ZJ (x0 : Vec Ideal S2x1024 .i32) (x1 : Vec Ideal S10000x128 .bf16) : FVec Ideal S1024x128 .f32 :=
  k2_pay21 (k2_pay3 (View.ld x0 r2_1)) (k2_pay17 (k2_pay3 (View.ld x0 r2_1)) (k2_pay7 (View.ld x0 r2_1) (View.ld x1 r2_2)) (k2_pay8 (View.ld x1 r2_3)) (k2_pay11 (View.ld x0 r2_1)) (View.ld x1 r2_4) (View.ld x1 r2_5)) (View.ld x1 r2_6)

set_option maxHeartbeats 100000 in
/-- The body's gather of the first endpoints, at entry (y, d): row x0 (0, y) of the node table (the zero row when the
    word's value is not a row number). -/
theorem zi_apply (x0 : Vec Ideal S2x1024 .i32) (x1 : Vec Ideal S10000x128 .bf16) (y : Fin 1024) (d : Fin 128) :
    ZI x0 x1 (ix2 y d) = Cert.Hand.Spec.row x1 (x0 (ix2 (0 : Fin 2) y)).toNat d := by
  have hid : k2_pay2 (View.ld x0 r2_0) (ix1 y) = x0 (ix2 (0 : Fin 2) y) :=
    ld_ids_apply x0 0 (by decide) inb_S2x1024_S1x1024_0_0 y
  rw [← hid]
  refine Eq.trans ?_ (gather_row x1 (k2_pay2 (View.ld x0 r2_0)) y d)
  refine (pay20_apply _ _ _ y d).trans ?_
  rw [pay16_apply, pay6_apply]

set_option maxHeartbeats 100000 in
/-- The body's gather of the second endpoints, at entry (y, d): row x0 (1, y) of the node table. -/
theorem zj_apply (x0 : Vec Ideal S2x1024 .i32) (x1 : Vec Ideal S10000x128 .bf16) (y : Fin 1024) (d : Fin 128) :
    ZJ x0 x1 (ix2 y d) = Cert.Hand.Spec.row x1 (x0 (ix2 (1 : Fin 2) y)).toNat d := by
  have hid : k2_pay3 (View.ld x0 r2_1) (ix1 y) = x0 (ix2 (1 : Fin 2) y) :=
    ld_ids_apply x0 1 (by decide) inb_S2x1024_S1x1024_1_0 y
  rw [← hid]
  refine Eq.trans ?_ (gather_row x1 (k2_pay3 (View.ld x0 r2_1)) y d)
  refine (pay21_apply _ _ _ y d).trans ?_
  rw [pay17_apply, pay7_apply]

end Cert.Hand.Gather

end
-- ==== Proof.KernelValue.lean ====
/-
  The kernel program's result array, entry by entry, is the specification.

  Region 0 leaves x · w; region 1, which finds it as its right operand, leaves Z = adj · (x · w); region 2 finds Z as
  its node table, the transposed edge list as its edge operand and the halves of the two decoder matrices. Entry
  t · 1024 + y of the result is entry y of what grid point t's body leaves: the decoder applied to rows
  Z[i], Z[j] for the endpoints (i, j) of edge t · 1024 + y.
-/
import proofs.«405411_j24885040513647_3_alg».proof.Proof.Gen.KernelIdeal.Frame
import proofs.«405411_j24885040513647_3_alg».proof.Proof.Spec
import proofs.«405411_j24885040513647_3_alg».proof.Proof.HostGlue
import proofs.«405411_j24885040513647_3_alg».proof.Proof.XwValue
import proofs.«405411_j24885040513647_3_alg».proof.Proof.ZValue
import proofs.«405411_j24885040513647_3_alg».proof.Proof.DecodeBlocks
import proofs.«405411_j24885040513647_3_alg».proof.Proof.DecodeTail
import proofs.«405411_j24885040513647_3_alg».proof.Proof.DecodeGather
import Idealize.ShloMosaic.Lib.ValueIdx

set_option maxRecDepth 16384

noncomputable section

namespace Cert.Hand.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The node table region 2 finds is Z = adj · (x · w) of the launch arrays. -/
theorem z_eq (c : Dev nD) :
    V4 m ρ c main_v3 = Spec.mm (m ((c : Thread nD τ).loc main_arg1)) (Spec.mm (m ((c : Thread nD τ).loc main_arg0)) (m ((c : Thread nD τ).loc main_arg2))) := by
  rw [HostGlue.V4_v3, Zv.arr_eq (V2 m ρ) c, HostGlue.V2_arg1, HostGlue.V2_v1, Xw.arr_eq (V0 m ρ) c]

/-- Entry e of the result array is the specification at edge e. -/
theorem result_apply (c : Dev nD) (e : Fin 524288) :
    W5 m ρ c (Proc.devRef .tc main_v10) (ix2 e (0 : Fin 1))
      = Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) e := by
  have he : e.val < 524288 := e.isLt
  obtain ⟨t, y, rfl⟩ : ∃ (t : Fin cfg2.N) (y : Fin 1024), e = (⟨t.val * 1024 + y.val, DecodeBlocks.edge_lt t y⟩ : Fin 524288) :=
    ⟨⟨e.val / 1024, by rw [show cfg2.N = 512 from N_2]; omega⟩, ⟨e.val % 1024, Nat.mod_lt _ (by decide)⟩,
      Fin.ext (by show e.val = e.val / 1024 * 1024 + e.val % 1024; omega)⟩
  have h1 : W5 m ρ c (Proc.devRef .tc main_v10) = (dat2 (V4 m ρ) c).arrAt 6 cfg2.N := W5_arr m ρ c 6
  rw [h1, DecodeBlocks.arr_apply (V4 m ρ) c t y]
  -- the body's result at entry y, through the gathered rows
  refine (Tail.out_apply_of _ _ _ _ _ _ y _ _ (fun d => Gather.zi_apply _ _ y d) (fun d => Gather.zj_apply _ _ y d)).trans ?_
  -- the blocks the body read are the arrays region 2 found
  rw [DecodeBlocks.iblk_z, DecodeBlocks.iblk_edges, DecodeBlocks.iblk_edges]
  rw [DecodeBlocks.iblk_w2a (V4 m ρ) c t, DecodeBlocks.iblk_w2b (V4 m ρ) c t, DecodeBlocks.iblk_w3a (V4 m ρ) c t,
    DecodeBlocks.iblk_w3b (V4 m ρ) c t]
  -- and those are the launch arrays' functions
  rw [z_eq m ρ c, HostGlue.V4_v5_apply m ρ c, HostGlue.V4_v5_apply m ρ c]
  simp only [HostGlue.V4_v6_apply m ρ c, HostGlue.V4_v7_apply m ρ c, HostGlue.V4_v8_apply m ρ c, HostGlue.V4_v9_apply m ρ c]
  rfl

/-- The result array as one function of the launch arrays. -/
theorem result_eq (c : Dev nD) :
    W5 m ρ c (Proc.devRef .tc main_v10)
      = fun i => Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (i 0) := by
  funext i
  obtain ⟨p, q, rfl⟩ : ∃ (p : Fin 524288) (q : Fin 1), i = ix2 p q := ⟨i 0, i 1, eq_ix2 i⟩
  obtain rfl : q = 0 := Subsingleton.elim _ _
  exact result_apply m ρ c p

end Cert.Hand.KernelValue

end
-- ==== Proof.RefGather.lean ====
/-
  The reference's two gathered row blocks, read at an index, over the extended reals.

  The node embeddings are Z = adj · (x · w): two plain matrix products, each entry a finite sum. The edge list is the
  two lists laid one after the other. For each endpoint column the reference slices the column out, flattens it,
  adds 10000 to a negative entry (the wrap-around of a negative position), and gathers the rows of Z at the resulting
  positions, each read as a signed number and clamped into [0, 9999]. When every endpoint word is below 10000 it is
  not negative, so nothing wraps and nothing is clamped: the block at (e, d) is Z at (endpoint of e, d).
-/
import proofs.«405411_j24885040513647_3_alg».proof.Proof.RefRead
import proofs.«405411_j24885040513647_3_alg».proof.Proof.Spec
import proofs.«405411_j24885040513647_3_alg».proof.Proof.LibPlainDot
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.Hand.RefGather

open Cert.ReferenceIdeal Cert.ReferenceIdeal.Gen Cert.ReferenceIdeal.ReadP Idealize.ShloMosaic Idealize.ShloMosaic.ValueIdx

/-! ## The node embeddings: two matrix products -/

/-- The first product, x · w, is the specification's. -/
theorem v0_eq (x0 : (⟨S10000x512, .f32⟩ : BufTy).Contents (Elt Ideal)) (x2 : (⟨S512x128, .f32⟩ : BufTy).Contents (Elt Ideal)) :
    val_main_v0 (F := Ideal) x0 x2 = Cert.Hand.Spec.mm x0 x2 := by
  funext i
  obtain ⟨r, c, rfl⟩ : ∃ (r : Fin 10000) (c : Fin 128), i = ix2 r c := ⟨i 0, i 1, eq_ix2 i⟩
  unfold val_main_v0
  simp only [Host.dotGeneral]
  exact PlainDot.IsPlain.dotGeneral_apply ⟨rfl, rfl, rfl, rfl, rfl, rfl⟩ none _ x0 x2 r c

/-- The second product, adj · (x · w), is the specification's array of node embeddings. -/
theorem v1_eq (x0 : (⟨S10000x512, .f32⟩ : BufTy).Contents (Elt Ideal)) (x1 : (⟨S10000x10000, .f32⟩ : BufTy).Contents (Elt Ideal))
    (x2 : (⟨S512x128, .f32⟩ : BufTy).Contents (Elt Ideal)) :
    val_main_v1 (F := Ideal) x0 x1 x2 = Cert.Hand.Spec.mm x1 (Cert.Hand.Spec.mm x0 x2) := by
  funext i
  obtain ⟨r, c, rfl⟩ : ∃ (r : Fin 10000) (c : Fin 128), i = ix2 r c := ⟨i 0, i 1, eq_ix2 i⟩
  unfold val_main_v1
  rw [v0_eq]
  simp only [Host.dotGeneral]
  exact PlainDot.IsPlain.dotGeneral_apply ⟨rfl, rfl, rfl, rfl, rfl, rfl⟩ none _ x1 (Cert.Hand.Spec.mm x0 x2) r c

/-! ## The edge list: the two lists laid one after the other -/

/-- The concatenated edge list at (e, a): the first list's entry when e is below its length, else the second list's
    entry 262144 positions earlier. -/
theorem v2_apply {F : FTy → Type} [FloatOps F] (x5 x6 : (⟨S262144x2, .i32⟩ : BufTy).Contents (Elt F)) (e : Fin 524288) (a : Fin 2) :
    val_main_v2 (F := F) x5 x6 (ix2 e a) = Cert.Hand.Spec.edge x5 x6 e a := by
  unfold Cert.Hand.Spec.edge val_main_v2
  split
  · next h =>
    exact concatenate_pair_apply_left (0 : Fin 2) x5 x6 _ (ix2 e a) rfl (ix2 (⟨e.val, h⟩ : Fin 262144) a)
      (fun b => match b with
        | ⟨0, _⟩ => rfl
        | ⟨1, _⟩ => rfl)
  · next h =>
    exact concatenate_pair_apply_right (0 : Fin 2) x5 x6 _ (ix2 e a) rfl rfl
      (ix2 (⟨e.val - 262144, by omega⟩ : Fin 262144) a)
      (fun b hb => match b, hb with
        | ⟨0, _⟩, hb => absurd rfl hb
        | ⟨1, _⟩, _ => rfl)
      (by show e.val - 262144 + 262144 = e.val; omega)

/-- Under the range hypotheses every endpoint word is below 10000. -/
theorem edge_lt (x5 x6 : Cert.Hand.Spec.W 262144 2) (h5 : ∀ i, (x5 i).toNat < 10000) (h6 : ∀ i, (x6 i).toNat < 10000)
    (e : Fin 524288) (a : Fin 2) : (Cert.Hand.Spec.edge x5 x6 e a).toNat < 10000 := by
  unfold Cert.Hand.Spec.edge
  split
  · exact h5 _
  · exact h6 _

/-! ## A word below 10000 is not negative: the wrap-around select keeps it -/

theorem wrap_small (w : BitVec 32) (hw : w.toNat < 10000) (v : BitVec 32) :
    Scalar.select (IntOp.cmpi .slt w 0#32) v w = w := by
  have hc : IntOp.cmpi .slt w 0#32 = 0#1 := by
    refine eq_zero_of_ne_one fun h1 => ?_
    have := (StableHlo.Predicate.slt_iff_toNat (a := w) (b := 0#32) (by omega) (by decide)).mp h1
    simp at this
  rw [hc, select_zero]

/-- A word below 10000, read signed and clamped into [0, 9999], is itself: the row of Z it names is the
    specification's row. -/
theorem min_toInt_small (w : BitVec 32) (hw : w.toNat < 10000) : min w.toInt.toNat 9999 = w.toNat := by
  have hti : w.toInt = (w.toNat : Int) := StableHlo.Predicate.toInt_eq_toNat_of_lt (by omega)
  rw [hti, Int.toNat_natCast]
  omega

/-! ## The row gather -/

/-- The row gather read at (e, c): the table's row n at column c, where n is the start index of e read signed and
    clamped into the table. -/
theorem gather_rows_apply {α : Type} {w : Nat} (x : S10000x128.Idx → α) (idx : IVec S524288x1 w)
    (e : Fin 524288) (c : Fin 128) (n : Nat) (hn : n < 10000) (hmin : min (idx (ix2 e (0 : Fin 1))).toInt.toNat 9999 = n) :
    Host.gather gather_S10000x128_S524288x1_S524288x128_1_0_n_n_0_1_1128 x idx (ix2 e c)
      = x (ix2 (⟨n, hn⟩ : Fin 10000) c) := by
  subst hmin
  unfold Host.gather
  congr 1
  funext a
  refine Fin.ext ?_
  match a with
  | ⟨0, _⟩ =>
    -- the collapsed axis: the clamped start index, no batching and no offset coordinate
    show gather_S10000x128_S524288x1_S524288x128_1_0_n_n_0_1_1128.start (ix2 e c) idx 0
      + gather_S10000x128_S524288x1_S524288x128_1_0_n_n_0_1_1128.batchCoord (ix2 e c) 0
      + gather_S10000x128_S524288x1_S524288x128_1_0_n_n_0_1_1128.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S524288x1_S524288x128_1_0_n_n_0_1_1128.startIndexMap from List.mem_singleton.mpr rfl)]
    have hsi : gather_S10000x128_S524288x1_S524288x128_1_0_n_n_0_1_1128.siIdx (ix2 e c) ⟨List.idxOf (0 : Fin 2) gather_S10000x128_S524288x1_S524288x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the kept axis: start 0, no batching, the result's column as the offset
    show gather_S10000x128_S524288x1_S524288x128_1_0_n_n_0_1_1128.start (ix2 e c) idx 1
      + gather_S10000x128_S524288x1_S524288x128_1_0_n_n_0_1_1128.batchCoord (ix2 e c) 1
      + gather_S10000x128_S524288x1_S524288x128_1_0_n_n_0_1_1128.offCoord (ix2 e c) 1 = c.val
    rw [GatherDims.batchCoord_eq_zero _ _ _ List.not_mem_nil]
    unfold GatherDims.start
    rw [dif_neg (show ¬ (1 : Fin 2) ∈ gather_S10000x128_S524288x1_S524288x128_1_0_n_n_0_1_1128.startIndexMap by decide)]
    simp only [Nat.add_zero, Nat.zero_add]
    rfl

/-! ## The start-index columns -/

section Columns
variable {F : FTy → Type} [FloatOps F]

/-- The first start-index column at edge e: the edge's first endpoint (slice of column 0, flattened, the wrap-around
    of a negative index not taken, back to a column). -/
theorem v10_apply (x5 x6 : (⟨S262144x2, .i32⟩ : BufTy).Contents (Elt F))
    (h5 : ∀ i, (x5 i).toNat < 10000) (h6 : ∀ i, (x6 i).toNat < 10000) (e : Fin 524288) :
    val_main_v10 (F := F) x5 x6 (ix2 e (0 : Fin 1)) = Cert.Hand.Spec.edge x5 x6 e 0 := by
  have hi : idx_main_v3 (idx_main_v4 (idx_main_v10 (ix2 e (0 : Fin 1)))) = ix2 e (0 : Fin 2) := by
    funext b
    match b with
    | ⟨0, _⟩ => exact Fin.ext (Nat.div_one _)
    | ⟨1, _⟩ => rfl
  have h4 : val_main_v4 (F := F) x5 x6 (idx_main_v10 (ix2 e (0 : Fin 1))) = Cert.Hand.Spec.edge x5 x6 e 0 := by
    rw [val_main_v4_apply, val_main_v3_apply, hi, v2_apply]
  rw [val_main_v10_apply, val_main_v9_apply, val_main_v6_apply, h4, val_main_v5_apply, val_main_c_apply]
  exact wrap_small _ (edge_lt x5 x6 h5 h6 e 0) _

/-- The second start-index column at edge e: the edge's second endpoint. -/
theorem v19_apply (x5 x6 : (⟨S262144x2, .i32⟩ : BufTy).Contents (Elt F))
    (h5 : ∀ i, (x5 i).toNat < 10000) (h6 : ∀ i, (x6 i).toNat < 10000) (e : Fin 524288) :
    val_main_v19 (F := F) x5 x6 (ix2 e (0 : Fin 1)) = Cert.Hand.Spec.edge x5 x6 e 1 := by
  have hi : idx_main_v12 (idx_main_v13 (idx_main_v19 (ix2 e (0 : Fin 1)))) = ix2 e (1 : Fin 2) := by
    funext b
    match b with
    | ⟨0, _⟩ => exact Fin.ext (Nat.div_one _)
    | ⟨1, _⟩ => rfl
  have h13 : val_main_v13 (F := F) x5 x6 (idx_main_v19 (ix2 e (0 : Fin 1))) = Cert.Hand.Spec.edge x5 x6 e 1 := by
    rw [val_main_v13_apply, val_main_v12_apply, hi, v2_apply]
  rw [val_main_v19_apply, val_main_v18_apply, val_main_v15_apply, h13, val_main_v14_apply, val_main_c_1_apply]
  exact wrap_small _ (edge_lt x5 x6 h5 h6 e 1) _

end Columns

/-! ## The two gathered row blocks -/

/-- The first gathered block at (e, d): row "first endpoint of e" of the node embeddings, at column d. -/
theorem v11_apply (x0 : (⟨S10000x512, .f32⟩ : BufTy).Contents (Elt Ideal)) (x1 : (⟨S10000x10000, .f32⟩ : BufTy).Contents (Elt Ideal))
    (x2 : (⟨S512x128, .f32⟩ : BufTy).Contents (Elt Ideal)) (x5 x6 : (⟨S262144x2, .i32⟩ : BufTy).Contents (Elt Ideal))
    (h5 : ∀ i, (x5 i).toNat < 10000) (h6 : ∀ i, (x6 i).toNat < 10000) (e : Fin 524288) (d : Fin 128) :
    val_main_v11 (F := Ideal) x0 x1 x2 x5 x6 (ix2 e d)
      = Cert.Hand.Spec.row (Cert.Hand.Spec.mm x1 (Cert.Hand.Spec.mm x0 x2)) (Cert.Hand.Spec.edge x5 x6 e 0).toNat d := by
  have hw := edge_lt x5 x6 h5 h6 e 0
  have hmin : min (val_main_v10 (F := Ideal) x5 x6 (ix2 e (0 : Fin 1))).toInt.toNat 9999 = (Cert.Hand.Spec.edge x5 x6 e 0).toNat := by
    rw [v10_apply x5 x6 h5 h6 e]
    exact min_toInt_small _ hw
  unfold val_main_v11 Cert.Hand.Spec.row
  rw [gather_rows_apply _ _ e d _ hw hmin, v1_eq, dif_pos hw]

/-- The second gathered block at (e, d): row "second endpoint of e" of the node embeddings, at column d. -/
theorem v20_apply (x0 : (⟨S10000x512, .f32⟩ : BufTy).Contents (Elt Ideal)) (x1 : (⟨S10000x10000, .f32⟩ : BufTy).Contents (Elt Ideal))
    (x2 : (⟨S512x128, .f32⟩ : BufTy).Contents (Elt Ideal)) (x5 x6 : (⟨S262144x2, .i32⟩ : BufTy).Contents (Elt Ideal))
    (h5 : ∀ i, (x5 i).toNat < 10000) (h6 : ∀ i, (x6 i).toNat < 10000) (e : Fin 524288) (d : Fin 128) :
    val_main_v20 (F := Ideal) x0 x1 x2 x5 x6 (ix2 e d)
      = Cert.Hand.Spec.row (Cert.Hand.Spec.mm x1 (Cert.Hand.Spec.mm x0 x2)) (Cert.Hand.Spec.edge x5 x6 e 1).toNat d := by
  have hw := edge_lt x5 x6 h5 h6 e 1
  have hmin : min (val_main_v19 (F := Ideal) x5 x6 (ix2 e (0 : Fin 1))).toInt.toNat 9999 = (Cert.Hand.Spec.edge x5 x6 e 1).toNat := by
    rw [v19_apply x5 x6 h5 h6 e]
    exact min_toInt_small _ hw
  unfold val_main_v20 Cert.Hand.Spec.row
  rw [gather_rows_apply _ _ e d _ hw hmin, v1_eq, dif_pos hw]

end Cert.Hand.RefGather

end
-- ==== Proof.RefValue.lean ====
/-
  The reference's result at an edge is the specification's value.

  The reference lays the two gathered rows side by side (a 256-wide row), takes the positive part, multiplies by W2
  (a sum over 256 positions), lays the hidden vector beside the entrywise product of the two rows, multiplies by W3
  (again a sum over 256 positions), and applies x ↦ 1 / (1 + exp (-x)).  A sum over 256 positions of a row made of two
  128-wide halves is the sum over the first half plus the sum over the second; in each half the row reads one of the
  two pieces.  That turns the two 256-sums into the four 128-sums of the specification, and 1 / (1 + exp (-x)) is the
  logistic.
-/
import proofs.«405411_j24885040513647_3_alg».proof.Proof.RefRead
import proofs.«405411_j24885040513647_3_alg».proof.Proof.Spec
import proofs.«405411_j24885040513647_3_alg».proof.Proof.RefGather
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin

set_option maxRecDepth 16384

noncomputable section

namespace Cert.Hand.RefValue

open Cert.ReferenceIdeal Cert.ReferenceIdeal.Gen Cert.ReferenceIdeal.ReadP Idealize.ShloMosaic Idealize.ShloMosaic.ValueIdx

/-! ## Pure facts -/

/-- A sum over 256 positions is the sum over the first 128 plus the sum over the last 128. -/
theorem sum_halves (f : Fin 256 → EReal) :
    ∑ k, f k = (∑ k : Fin 128, f ⟨k.val, by omega⟩) + ∑ k : Fin 128, f ⟨128 + k.val, by omega⟩ :=
  Fin.sum_univ_add (a := 128) (b := 128) f

section Cat
variable {α : Type} {N : Nat}

/-- Two N × 128 arrays laid side by side, read in the left half: the first array at the same place. -/
theorem cat_left (x y : (⟨2, ![N, 128]⟩ : Shape).Idx → α)
    (h : Shape.Concatenates [(⟨2, ![N, 128]⟩ : Shape), ⟨2, ![N, 128]⟩] ⟨2, ![N, 256]⟩ 1) (e : Fin N) (k : Fin 128) :
    concatenate (⟨2, ![N, 256]⟩ : Shape) 1 [⟨_, x⟩, ⟨_, y⟩] h (ix2 e (⟨k.val, by omega⟩ : Fin 256)) = x (ix2 e k) :=
  concatenate_pair_apply_left 1 x y h _ rfl _ (fun b => by
    match b with
    | ⟨0, _⟩ => rfl
    | ⟨1, _⟩ => rfl)

/-- Two N × 128 arrays laid side by side, read in the right half: the second array, 128 columns to the left. -/
theorem cat_right (x y : (⟨2, ![N, 128]⟩ : Shape).Idx → α)
    (h : Shape.Concatenates [(⟨2, ![N, 128]⟩ : Shape), ⟨2, ![N, 128]⟩] ⟨2, ![N, 256]⟩ 1) (e : Fin N) (k : Fin 128) :
    concatenate (⟨2, ![N, 256]⟩ : Shape) 1 [⟨_, x⟩, ⟨_, y⟩] h (ix2 e (⟨128 + k.val, by omega⟩ : Fin 256)) = y (ix2 e k) :=
  concatenate_pair_apply_right 1 x y h _ rfl rfl _
    (fun b hb => by
      match b with
      | ⟨0, _⟩ => rfl
      | ⟨1, _⟩ => exact absurd rfl hb)
    (by show k.val + 128 = 128 + k.val; omega)

end Cat

/-- The logistic as the reference spells it: one over one plus the exponential of the negation. -/
theorem logistic_spelt (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  rw [Ideal.ofBits_def, Ideal.ofBits_one_f32]
  rfl

/-! ## The reference's stages at an index -/

section Chain
variable (x0 : (⟨S10000x512, .f32⟩ : BufTy).Contents (Elt Ideal)) (x1 : (⟨S10000x10000, .f32⟩ : BufTy).Contents (Elt Ideal))
  (x2 : (⟨S512x128, .f32⟩ : BufTy).Contents (Elt Ideal)) (x3 : (⟨S256x128, .f32⟩ : BufTy).Contents (Elt Ideal))
  (x4 : (⟨S256x1, .f32⟩ : BufTy).Contents (Elt Ideal)) (x5 x6 : (⟨S262144x2, .i32⟩ : BufTy).Contents (Elt Ideal))

/-- The two gathered rows side by side: the left half is the first row. -/
theorem v21_left (e : Fin 524288) (k : Fin 128) :
    val_main_v21 (F := Ideal) x0 x1 x2 x5 x6 (ix2 e (⟨k.val, by omega⟩ : Fin 256))
      = val_main_v11 (F := Ideal) x0 x1 x2 x5 x6 (ix2 e k) := by
  unfold val_main_v21
  exact cat_left (N := 524288) _ _ _ e k

/-- The two gathered rows side by side: the right half is the second row. -/
theorem v21_right (e : Fin 524288) (k : Fin 128) :
    val_main_v21 (F := Ideal) x0 x1 x2 x5 x6 (ix2 e (⟨128 + k.val, by omega⟩ : Fin 256))
      = val_main_v20 (F := Ideal) x0 x1 x2 x5 x6 (ix2 e k) := by
  unfold val_main_v21
  exact cat_right (N := 524288) _ _ _ e k

/-- The array the positive part is taken against is zero everywhere. -/
theorem relu_zero (i : S524288x256.Idx) : val_main_call0_v0 (F := Ideal) i = (0 : EReal) := by
  rw [val_main_call0_v0_apply, val_main_call0_cst_apply, Ideal.ofBits_def, Ideal.ofBits_zero_f32]

/-- The positive part of the 256-wide row, left half. -/
theorem v23_left (e : Fin 524288) (k : Fin 128) :
    val_main_v23 (F := Ideal) x0 x1 x2 x5 x6 (ix2 e (⟨k.val, by omega⟩ : Fin 256))
      = max (val_main_v11 (F := Ideal) x0 x1 x2 x5 x6 (ix2 e k)) (0 : EReal) := by
  rw [val_main_v23_apply, v21_left, relu_zero, Ideal.maximumf_def]

/-- The positive part of the 256-wide row, right half. -/
theorem v23_right (e : Fin 524288) (k : Fin 128) :
    val_main_v23 (F := Ideal) x0 x1 x2 x5 x6 (ix2 e (⟨128 + k.val, by omega⟩ : Fin 256))
      = max (val_main_v20 (F := Ideal) x0 x1 x2 x5 x6 (ix2 e k)) (0 : EReal) := by
  rw [val_main_v23_apply, v21_right, relu_zero, Ideal.maximumf_def]

/-- The hidden product's left operand at (e, d), position k: the row e at column k. -/
theorem lidx24 (e : Fin 524288) (d : Fin 128) (k : Fin 256) : lidx_main_v24 (ix2 e d) k = ix2 e k :=
  funext fun a => match a with
    | ⟨0, _⟩ => rfl
    | ⟨1, _⟩ => rfl

/-- The hidden product's right operand at (e, d), position k: W2 at (k, d). -/
theorem ridx24 (e : Fin 524288) (d : Fin 128) (k : Fin 256) : ridx_main_v24 (ix2 e d) k = ix2 k d :=
  funext fun a => match a with
    | ⟨0, _⟩ => rfl
    | ⟨1, _⟩ => rfl

/-- The hidden vector: the positive parts of the two rows, each against its half of W2. -/
theorem v24_halves (e : Fin 524288) (d : Fin 128) :
    val_main_v24 (F := Ideal) x0 x1 x2 x3 x5 x6 (ix2 e d)
      = (∑ j : Fin 128, max (val_main_v11 (F := Ideal) x0 x1 x2 x5 x6 (ix2 e j)) (0 : EReal)
            * x3 (ix2 (⟨j.val, by omega⟩ : Fin 256) d))
        + ∑ j : Fin 128, max (val_main_v20 (F := Ideal) x0 x1 x2 x5 x6 (ix2 e j)) (0 : EReal)
            * x3 (ix2 (⟨128 + j.val, by omega⟩ : Fin 256) d) := by
  refine (val_main_v24_apply x0 x1 x2 x3 x5 x6 (ix2 e d)).trans ((sum_halves _).trans ?_)
  refine congrArg₂ (· + ·) (Finset.sum_congr rfl fun j _ => ?_) (Finset.sum_congr rfl fun j _ => ?_)
  · rw [lidx24, ridx24, v23_left]
  · rw [lidx24, ridx24, v23_right]

/-- The hidden vector beside the product of the rows: the left half is the hidden vector. -/
theorem v25_left (e : Fin 524288) (k : Fin 128) :
    val_main_v25 (F := Ideal) x0 x1 x2 x3 x5 x6 (ix2 e (⟨k.val, by omega⟩ : Fin 256))
      = val_main_v24 (F := Ideal) x0 x1 x2 x3 x5 x6 (ix2 e k) := by
  unfold val_main_v25
  exact cat_left (N := 524288) _ _ _ e k

/-- The hidden vector beside the product of the rows: the right half is the product. -/
theorem v25_right (e : Fin 524288) (k : Fin 128) :
    val_main_v25 (F := Ideal) x0 x1 x2 x3 x5 x6 (ix2 e (⟨128 + k.val, by omega⟩ : Fin 256))
      = val_main_v22 (F := Ideal) x0 x1 x2 x5 x6 (ix2 e k) := by
  unfold val_main_v25
  exact cat_right (N := 524288) _ _ _ e k

/-- The logit product's left operand at (e, 0), position k: the row e at column k. -/
theorem lidx26 (e : Fin 524288) (k : Fin 256) : lidx_main_v26 (ix2 e (0 : Fin 1)) k = ix2 e k :=
  funext fun a => match a with
    | ⟨0, _⟩ => rfl
    | ⟨1, _⟩ => rfl

/-- The logit product's right operand at (e, 0), position k: W3 at (k, 0). -/
theorem ridx26 (e : Fin 524288) (k : Fin 256) : ridx_main_v26 (ix2 e (0 : Fin 1)) k = ix2 k (0 : Fin 1) :=
  funext fun a => match a with
    | ⟨0, _⟩ => rfl
    | ⟨1, _⟩ => rfl

/-- The logit: the hidden vector against the first half of W3, the product of the rows against the second. -/
theorem v26_halves (e : Fin 524288) :
    val_main_v26 (F := Ideal) x0 x1 x2 x3 x4 x5 x6 (ix2 e (0 : Fin 1))
      = (∑ k : Fin 128, val_main_v24 (F := Ideal) x0 x1 x2 x3 x5 x6 (ix2 e k)
            * x4 (ix2 (⟨k.val, by omega⟩ : Fin 256) (0 : Fin 1)))
        + ∑ k : Fin 128, (val_main_v11 (F := Ideal) x0 x1 x2 x5 x6 (ix2 e k) * val_main_v20 (F := Ideal) x0 x1 x2 x5 x6 (ix2 e k))
            * x4 (ix2 (⟨128 + k.val, by omega⟩ : Fin 256) (0 : Fin 1)) := by
  refine (val_main_v26_apply x0 x1 x2 x3 x4 x5 x6 (ix2 e (0 : Fin 1))).trans ((sum_halves _).trans ?_)
  refine congrArg₂ (· + ·) (Finset.sum_congr rfl fun k _ => ?_) (Finset.sum_congr rfl fun k _ => ?_)
  · rw [lidx26, ridx26, v25_left]
  · rw [lidx26, ridx26, v25_right, val_main_v22_apply, Ideal.mulf_def]

/-- The result is the logistic of the logit. -/
theorem v32_logistic (e : Fin 524288) :
    val_main_v32 (F := Ideal) x0 x1 x2 x3 x4 x5 x6 (ix2 e (0 : Fin 1))
      = Ideal.logistic (val_main_v26 (F := Ideal) x0 x1 x2 x3 x4 x5 x6 (ix2 e (0 : Fin 1))) := by
  rw [val_main_v32_apply, val_main_v31_apply, val_main_cst_3_apply, val_main_v30_apply, val_main_v29_apply,
    val_main_cst_apply, val_main_v28_apply, val_main_v27_apply]
  exact logistic_spelt _

/-- Given the two gathered rows at edge e, the reference's result there is the decoder's value on them. -/
theorem v32_of_rows (e : Fin 524288) (zi zj : Fin 128 → EReal)
    (h11 : ∀ d, val_main_v11 (F := Ideal) x0 x1 x2 x5 x6 (ix2 e d) = zi d)
    (h20 : ∀ d, val_main_v20 (F := Ideal) x0 x1 x2 x5 x6 (ix2 e d) = zj d) :
    val_main_v32 (F := Ideal) x0 x1 x2 x3 x4 x5 x6 (ix2 e (0 : Fin 1)) = Cert.Hand.Spec.dec zi zj x3 x4 := by
  have hh : ∀ d : Fin 128, val_main_v24 (F := Ideal) x0 x1 x2 x3 x5 x6 (ix2 e d) = Cert.Hand.Spec.hid zi zj x3 d := by
    intro d
    rw [v24_halves]
    simp only [h11, h20]
    rfl
  rw [v32_logistic, v26_halves]
  simp only [hh, h11, h20]
  rfl

end Chain

/-- The reference's result at edge e is the specification's. -/
theorem ref_apply (x0 : (⟨S10000x512, .f32⟩ : BufTy).Contents (Elt Ideal)) (x1 : (⟨S10000x10000, .f32⟩ : BufTy).Contents (Elt Ideal))
    (x2 : (⟨S512x128, .f32⟩ : BufTy).Contents (Elt Ideal)) (x3 : (⟨S256x128, .f32⟩ : BufTy).Contents (Elt Ideal))
    (x4 : (⟨S256x1, .f32⟩ : BufTy).Contents (Elt Ideal)) (x5 x6 : (⟨S262144x2, .i32⟩ : BufTy).Contents (Elt Ideal))
    (h5 : ∀ i, (x5 i).toNat < 10000) (h6 : ∀ i, (x6 i).toNat < 10000) (e : Fin 524288) :
    val_main_v32 (F := Ideal) x0 x1 x2 x3 x4 x5 x6 (ix2 e (0 : Fin 1)) = Cert.Hand.Spec.out x0 x1 x2 x3 x4 x5 x6 e :=
  v32_of_rows x0 x1 x2 x3 x4 x5 x6 e _ _
    (fun d => Cert.Hand.RefGather.v11_apply x0 x1 x2 x5 x6 h5 h6 e d)
    (fun d => Cert.Hand.RefGather.v20_apply x0 x1 x2 x5 x6 h5 h6 e d)

end Cert.Hand.RefValue

end
-- ==== Proof.lean ====
/-
  The certificate of the edge decoder: the Pallas program (three kernel launches: x · w, then Z = adj · (x · w), then,
  per edge, two rows of Z gathered by one-hot products and pushed through the two-layer decoder) against its jnp
  reference (the same products, the rows gathered by indexing), over the extended reals.

  Both programs end with the same array: entry e is the decoder applied to rows Z[i] and Z[j] for the endpoints
  (i, j) of edge e. The kernel's one-hot gather sums, over all 10000 rows, the row times one where the position is the
  endpoint and times zero elsewhere: on extended reals that is the row itself, whatever it holds (0 · v = 0 for every
  v), so no finiteness is used. The decoder's two products over 256 columns are split by the kernel into products
  over the two halves of 128: a regrouping of a finite sum. The reference reads a row by its index, wrapping a
  negative index and clamping; the statement's precondition says every endpoint is a node, 0 ≤ id < 10000, so
  neither happens and both programs read row id. The conversions to the narrower float format are the identity on
  extended reals, and the logistic is one function on both sides.

  The frames of the two kernel programs are the generated ones; the reference's is its run with the result dropped. The idealization rewrote no operation, so nothing is owed for it.
-/
import proofs.«405411_j24885040513647_3_alg».proof.Defs
import proofs.«405411_j24885040513647_3_alg».proof.Proof.Gen.Kernel
import proofs.«405411_j24885040513647_3_alg».proof.Proof.Gen.Kernel.Skeleton
import proofs.«405411_j24885040513647_3_alg».proof.Proof.Gen.Kernel.Launch
import proofs.«405411_j24885040513647_3_alg».proof.Proof.Gen.Kernel.Points
import proofs.«405411_j24885040513647_3_alg».proof.Proof.Gen.Kernel.Frame
import proofs.«405411_j24885040513647_3_alg».proof.Proof.Gen.KernelIdeal
import proofs.«405411_j24885040513647_3_alg».proof.Proof.Gen.KernelIdeal.Skeleton
import proofs.«405411_j24885040513647_3_alg».proof.Proof.Gen.KernelIdeal.Launch
import proofs.«405411_j24885040513647_3_alg».proof.Proof.Gen.KernelIdeal.Points
import proofs.«405411_j24885040513647_3_alg».proof.Proof.Gen.KernelIdeal.Frame
import proofs.«405411_j24885040513647_3_alg».proof.Proof.Gen.ReferenceIdeal
import proofs.«405411_j24885040513647_3_alg».proof.Proof.RefRun
import proofs.«405411_j24885040513647_3_alg».proof.Proof.RefRead
import proofs.«405411_j24885040513647_3_alg».proof.Proof.Gen.Pre_finite_inputs
import proofs.«405411_j24885040513647_3_alg».proof.Proof.Spec
import proofs.«405411_j24885040513647_3_alg».proof.Proof.PreRange
import proofs.«405411_j24885040513647_3_alg».proof.Proof.KernelRun
import proofs.«405411_j24885040513647_3_alg».proof.Proof.KernelValue
import proofs.«405411_j24885040513647_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the specification's array of the launch arrays: the kernel by its regions' values chained
    through the host operations, the reference by its run read entry by entry under the index range the precondition
    gives. -/
theorem algebraic : Cert.algebraic_KernelIdeal_ReferenceIdeal := by
  intro m ρ m' ρ' hpre hagree
  refine ⟨fun c i => Cert.Hand.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (i 0), ?_, ?_⟩
  · exact (θ_run Cert.KernelIdeal.defs _ _).mono
      (fun r h c => ⟨(h c).1.trans (Cert.Hand.KernelValue.result_eq m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.ValueP.run (F := Ideal) m' ρ')
    obtain ⟨h5, h6⟩ := Cert.Hand.PreRange.range_of_pre _ _ _ _ _ _ _ (hpre c)
    rw [Cert.ReferenceIdeal.ReadP.val_main_v32_eq, (hagree c).1, (hagree c).2.1, (hagree c).2.2.1, (hagree c).2.2.2.1,
      (hagree c).2.2.2.2.1, (hagree c).2.2.2.2.2.1, (hagree c).2.2.2.2.2.2]
    funext i
    obtain ⟨p, q, rfl⟩ : ∃ (p : Fin 524288) (q : Fin 1), i = ix2 p q := ⟨i 0, i 1, eq_ix2 i⟩
    obtain rfl : q = 0 := Subsingleton.elim _ _
    exact Cert.Hand.RefValue.ref_apply _ _ _ _ _ _ _ h5 h6 p

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
